-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S100000x512 : Shape := ⟨2, ![100000, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S512x512 .f32) (main_arg1 : IVec S512 32) (main_arg2 : FVec F S100000x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg1 main_v9
  let main_c_3 : IVec S_ 32 := constantI S_ 32 100000#32
  let main_v11 : IVec S512 32 := broadcastInDim S512 ![] bcast_S_S512 main_c_3
  let main_v12 : IVec S512 1 := cmpi .slt main_arg1 main_v11
  let main_v13 : IVec S512 1 := andi main_v10 main_v12
  let main_c_4 : IVec S_ 1 := constantI S_ 1 1#1
  let main_v14 : IVec S_ 1 := (fun x v => Host.reduce IntOp.andi x v reducesTo_S512_S_d0 h_S_) main_v13 main_c_4
  let main_v15 : IVec S_ 1 := andi main_v8 main_v14
  main_v15
-- ==== Kernel.lean ====
abbrev S512x512 : Shape := ⟨2, ![512, 512]⟩
abbrev S512 : Shape := ⟨1, ![512]⟩
abbrev S100000x512 : Shape := ⟨2, ![100000, 512]⟩
abbrev S_ : Shape := ⟨0, ![]⟩
abbrev S512x1 : Shape := ⟨2, ![512, 1]⟩
abbrev S2x512x1 : Shape := ⟨3, ![2, 512, 1]⟩
abbrev S1000x512 : Shape := ⟨2, ![1000, 512]⟩
abbrev S1x512x1 : Shape := ⟨3, ![1, 512, 1]⟩
abbrev S1000 : Shape := ⟨1, ![1000]⟩
abbrev S1000x1 : Shape := ⟨2, ![1000, 1]⟩
abbrev S512x1000 : Shape := ⟨2, ![512, 1000]⟩

abbrev nBuf : Space → Nat
  | .hbm => 47
  | .vmem => 13
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S512x512, .bf16⟩
  | .hbm, ⟨14, _⟩ => ⟨S512x1, .i32⟩
  | .hbm, ⟨15, _⟩ => ⟨S2x512x1, .f32⟩
  | .hbm, ⟨16, _⟩ => ⟨S2x512x1, .f32⟩
  | .hbm, ⟨17, _⟩ => ⟨S2x512x1, .f32⟩
  | .hbm, ⟨18, _⟩ => ⟨S1x512x1, .f32⟩
  | .hbm, ⟨19, _⟩ => ⟨S512x1, .f32⟩
  | .hbm, ⟨20, _⟩ => ⟨S1x512x1, .f32⟩
  | .hbm, ⟨21, _⟩ => ⟨S512x1, .f32⟩
  | .hbm, ⟨22, _⟩ => ⟨S1x512x1, .f32⟩
  | .hbm, ⟨23, _⟩ => ⟨S512x1, .f32⟩
  | .hbm, ⟨24, _⟩ => ⟨S1x512x1, .f32⟩
  | .hbm, ⟨25, _⟩ => ⟨S512x1, .f32⟩
  | .hbm, ⟨26, _⟩ => ⟨S1x512x1, .f32⟩
  | .hbm, ⟨27, _⟩ => ⟨S512x1, .f32⟩
  | .hbm, ⟨28, _⟩ => ⟨S1x512x1, .f32⟩
  | .hbm, ⟨29, _⟩ => ⟨S512x1, .f32⟩
  | .hbm, ⟨30, _⟩ => ⟨S512x1, .f32⟩
  | .hbm, ⟨31, _⟩ => ⟨S512x1, .f32⟩
  | .hbm, ⟨32, _⟩ => ⟨S512x1, .f32⟩
  | .hbm, ⟨33, _⟩ => ⟨S512x1, .f32⟩
  | .hbm, ⟨34, _⟩ => ⟨S512x1, .f32⟩
  | .hbm, ⟨35, _⟩ => ⟨S512x1, .f32⟩
  | .hbm, ⟨36, _⟩ => ⟨S512x1, .f32⟩
  | .hbm, ⟨37, _⟩ => ⟨S512x1, .f32⟩
  | .hbm, ⟨38, _⟩ => ⟨S512x1, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S512x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S512x512, .bf16⟩
  | .local _ .vmem, ⟨1, _⟩ => ⟨S1000x512, .f32⟩
  | .local _ .vmem, ⟨2, _⟩ => ⟨S1000x512, .f32⟩
  | .local _ .vmem, ⟨3, _⟩ => ⟨S512x1, .i32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v89 : BitVec 1 := Scalar.cmpi .eq arg1 c49_i32
  let v90 : BitVec 32 := Scalar.extui v89
  let c0_i32_39 : BitVec 32 := 0#32
  let v91 : BitVec 1 := Scalar.cmpi .ne v90 c0_i32_39
  v91

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bitsLt_bf16_f32 : FTy.bits .bf16 < FTy.bits .f32
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1000x512_S1000x512_0_0 : ∀ a, (![0, 0] : Fin 2 → Nat) a + S1000x512.size a ≤ S1000x512.size a
  h_S1000x512 : 0 < S1000x512.numel
  reduces_S1000x512_S1000 : S1000x512.Reduces [1] S1000
  shapeCasts_S1000_S1000x1 : S1000.ShapeCasts S1000x1
  broadcasts_S1000x1_S1000x512 : S1000x1.Broadcasts S1000x512
  iota_S512x1000_d1_w32 : S512x1000.Iotas .tc 32 [1]
  broadcasts_S512x1_S512x1000 : S512x1.Broadcasts S512x1000
  reduces_S512x1000_S512 : S512x1000.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x512x1_S1x512x1_0_0_0 : S2x512x1.Slices ![0, 0, 0] S1x512x1
  slices_S2x512x1_S1x512x1_1_0_0 : S2x512x1.Slices ![1, 0, 0] S1x512x1
  reducesTo_S512x1_S_d0_1 : S512x1.ReducesTo [0, 1] S_
  dot_S512x512_S1000x512_S512x1000_1_1_0_0_n_n_wf : DotDims.WF S512x512 S1000x512 S512x1000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S100000x512.size a
  hwx0_1 : ∀ i : grid0.Coords, EltTy.bits .f32 = 32 ∨ (Rect.block (s := S100000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x512x1.size a
  hwx0_3 : ∀ i : grid0.Coords, EltTy.bits .f32 = 32 ∨ (Rect.block (s := S2x512x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)

variable [Facts₀]

def dot_S512x512_S1000x512_S512x1000_1_1_0_0_n_n : DotDims S512x512 S1000x512 S512x1000 where
  lhsContracting := [1]
  rhsContracting := [1]
  lhsNonContracting := [0]
  rhsNonContracting := [0]
  lhsBatch := []
  rhsBatch := []
  wf := dot_S512x512_S1000x512_S512x1000_1_1_0_0_n_n_wf

abbrev win0_0 : Pipeline.Window sig grid0 :=
  Pipeline.Window.ofSpec (Memref.whole main_v5) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S512x512 : Shape := ⟨2, ![512, 512]⟩
abbrev S512 : Shape := ⟨1, ![512]⟩
abbrev S100000x512 : Shape := ⟨2, ![100000, 512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S1x100000 : Shape := ⟨2, ![1, 100000]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 112
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S512x100000, .f32⟩
  | .hbm, ⟨28, _⟩ => ⟨S512x100000, .f32⟩
  | .hbm, ⟨29, _⟩ => ⟨S_, .f32⟩
  | .hbm, ⟨30, _⟩ => ⟨S512x100000, .f32⟩
  | .hbm, ⟨31, _⟩ => ⟨S512x100000, .f32⟩
  | .hbm, ⟨32, _⟩ => ⟨S512x100000, .f32⟩
  | .hbm, ⟨33, _⟩ => ⟨S_, .f32⟩
  | .hbm, ⟨34, _⟩ => ⟨S512x100000, .f32⟩
  | .hbm, ⟨35, _⟩ => ⟨S512x100000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S512x100000, .f32⟩
  | .hbm, ⟨40, _⟩ => ⟨S512x100000, .f32⟩
  | .hbm, ⟨41, _⟩ => ⟨S_, .f32⟩
  | .hbm, ⟨42, _⟩ => ⟨S512x100000, .f32⟩
  | .hbm, ⟨43, _⟩ => ⟨S512x100000, .f32⟩
  | .hbm, ⟨44, _⟩ => ⟨S512x100000, .f32⟩
  | .hbm, ⟨45, _⟩ => ⟨S_, .f32⟩
  | .hbm, ⟨46, _⟩ => ⟨S512x100000, .f32⟩
  | .hbm, ⟨47, _⟩ => ⟨S512x100000, .f32⟩
  | .hbm, ⟨48, _⟩ => ⟨S_, .f32⟩
  | .hbm, ⟨49, _⟩ => ⟨S512x100000, .f32⟩
  | .hbm, ⟨50, _⟩ => ⟨S512x100000, .f32⟩
  | .hbm, ⟨51, _⟩ => ⟨S512x100000, .f32⟩
  | .hbm, ⟨52, _⟩ => ⟨S_, .f32⟩
  | .hbm, ⟨53, _⟩ => ⟨S512x100000, .f32⟩
  | .hbm, ⟨54, _⟩ => ⟨S512x100000, .i1⟩
  | .hbm, ⟨55, _⟩ => ⟨S_, .f32⟩
  | .hbm, ⟨56, _⟩ => ⟨S512x100000, .f32⟩
  | .hbm, ⟨57, _⟩ => ⟨S512x100000, .f32⟩
  | .hbm, ⟨58, _⟩ => ⟨S512x100000, .f32⟩
  | .hbm, ⟨59, _⟩ => ⟨S512x1, .i32⟩
  | .hbm, ⟨60, _⟩ => ⟨S1x100000, .i32⟩
  | .hbm, ⟨61, _⟩ => ⟨S512x100000, .i32⟩
  | .hbm, ⟨62, _⟩ => ⟨S512x100000, .i32⟩
  | .hbm, ⟨63, _⟩ => ⟨S512x100000, .i1⟩
  | .hbm, ⟨64, _⟩ => ⟨S512x100000, .f32⟩
  | .hbm, ⟨65, _⟩ => ⟨S_, .f32⟩
  | .hbm, ⟨66, _⟩ => ⟨S512x100000, .f32⟩
  | .hbm, ⟨67, _⟩ => ⟨S512x100000, .f32⟩
  | .hbm, ⟨68, _⟩ => ⟨S_, .f32⟩
  | .hbm, ⟨69, _⟩ => ⟨S512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S512x1, .f32⟩
  | .hbm, ⟨74, _⟩ => ⟨S512x100000, .f32⟩
  | .hbm, ⟨75, _⟩ => ⟨S512x100000, .f32⟩
  | .hbm, ⟨76, _⟩ => ⟨S512x100000, .f32⟩
  | .hbm, ⟨77, _⟩ => ⟨S_, .f32⟩
  | .hbm, ⟨78, _⟩ => ⟨S512, .f32⟩
  | .hbm, ⟨79, _⟩ => ⟨S512x1, .f32⟩
  | .hbm, ⟨80, _⟩ => ⟨S512x1, .f32⟩
  | .hbm, ⟨81, _⟩ => ⟨S512x100000, .f32⟩
  | .hbm, ⟨82, _⟩ => ⟨S512x100000, .f32⟩
  | .hbm, ⟨83, _⟩ => ⟨S512x1, .i32⟩
  | .hbm, ⟨84, _⟩ => ⟨S_, .i32⟩
  | .hbm, ⟨85, _⟩ => ⟨S512x1, .i32⟩
  | .hbm, ⟨86, _⟩ => ⟨S512x1, .i1⟩
  | .hbm, ⟨87, _⟩ => ⟨S_, .i32⟩
  | .hbm, ⟨88, _⟩ => ⟨S512x1, .i32⟩
  | .hbm, ⟨89, _⟩ => ⟨S512x1, .i32⟩
  | .hbm, ⟨90, _⟩ => ⟨S512x1, .i32⟩
  | .hbm, ⟨91, _⟩ => ⟨S512x1x1, .i32⟩
  | .hbm, ⟨92, _⟩ => ⟨S1, .i32⟩
  | .hbm, ⟨93, _⟩ => ⟨S_, .i32⟩
  | .hbm, ⟨94, _⟩ => ⟨S512x1x1, .i32⟩
  | .hbm, ⟨95, _⟩ => ⟨S512x1x1, .i1⟩
  | .hbm, ⟨96, _⟩ => ⟨S1x1x1, .i32⟩
  | .hbm, ⟨97, _⟩ => ⟨S512x1x1, .i32⟩
  | .hbm, ⟨98, _⟩ => ⟨S512x1x1, .i1⟩
  | .hbm, ⟨99, _⟩ => ⟨S512x1x1, .i1⟩
  | .hbm, ⟨100, _⟩ => ⟨S_, .i1⟩
  | .hbm, ⟨101, _⟩ => ⟨S512x1, .i1⟩
  | .hbm, ⟨102, _⟩ => ⟨S512x1, .f32⟩
  | .hbm, ⟨103, _⟩ => ⟨S_, .f32⟩
  | .hbm, ⟨104, _⟩ => ⟨S512x1, .f32⟩
  | .hbm, ⟨105, _⟩ => ⟨S512x1, .f32⟩
  | .hbm, ⟨106, _⟩ => ⟨S512, .f32⟩
  | .hbm, ⟨107, _⟩ => ⟨S512, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_cst_2 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_cst_4 : Ref sig .tc := ⟨.hbm, 36, rfl⟩
abbrev main_cst_5 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v15 : Ref sig .tc := ⟨.hbm, 43, rfl⟩
abbrev main_v16 : Ref sig .tc := ⟨.hbm, 44, rfl⟩
abbrev main_cst_6 : Ref sig .tc := ⟨.hbm, 45, rfl⟩
abbrev main_v17 : Ref sig .tc := ⟨.hbm, 46, rfl⟩
abbrev main_v18 : Ref sig .tc := ⟨.hbm, 47, rfl⟩
abbrev main_cst_7 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_8 : Ref sig .tc := ⟨.hbm, 52, rfl⟩
abbrev main_v22 : Ref sig .tc := ⟨.hbm, 53, rfl⟩
abbrev main_v23 : Ref sig .tc := ⟨.hbm, 54, rfl⟩
abbrev main_cst_9 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call5_v0 : Ref sig .tc := ⟨.hbm, 59, rfl⟩
abbrev main_call5_v1 : Ref sig .tc := ⟨.hbm, 60, rfl⟩
abbrev main_call5_v2 : Ref sig .tc := ⟨.hbm, 61, rfl⟩
abbrev main_call5_v3 : Ref sig .tc := ⟨.hbm, 62, rfl⟩
abbrev main_v27 : Ref sig .tc := ⟨.hbm, 63, rfl⟩
abbrev main_v28 : Ref sig .tc := ⟨.hbm, 64, rfl⟩
abbrev main_cst_10 : Ref sig .tc := ⟨.hbm, 65, rfl⟩
abbrev main_v29 : Ref sig .tc := ⟨.hbm, 66, rfl⟩
abbrev main_v30 : Ref sig .tc := ⟨.hbm, 67, rfl⟩
abbrev main_call7_cst : Ref sig .tc := ⟨.hbm, 68, rfl⟩
abbrev main_call7_v0 : Ref sig .tc := ⟨.hbm, 69, rfl⟩
abbrev main_call7_cst_0 : Ref sig .tc := ⟨.hbm, 70, rfl⟩
abbrev main_call7_v1 : Ref sig .tc := ⟨.hbm, 71, rfl⟩
abbrev main_call7_v2 : Ref sig .tc := ⟨.hbm, 72, rfl⟩
abbrev main_call7_v3 : Ref sig .tc := ⟨.hbm, 73, rfl⟩
abbrev main_call7_v4 : Ref sig .tc := ⟨.hbm, 74, rfl⟩
abbrev main_call7_v5 : Ref sig .tc := ⟨.hbm, 75, rfl⟩
abbrev main_call7_v6 : Ref sig .tc := ⟨.hbm, 76, rfl⟩
abbrev main_call7_cst_1 : Ref sig .tc := ⟨.hbm, 77, rfl⟩
abbrev main_call7_v7 : Ref sig .tc := ⟨.hbm, 78, rfl⟩
abbrev main_call7_v8 : Ref sig .tc := ⟨.hbm, 79, rfl⟩
abbrev main_call7_v9 : Ref sig .tc := ⟨.hbm, 80, rfl⟩
abbrev main_call7_v10 : Ref sig .tc := ⟨.hbm, 81, rfl⟩
abbrev main_v31 : Ref sig .tc := ⟨.hbm, 82, rfl⟩
abbrev main_v32 : Ref sig .tc := ⟨.hbm, 83, rfl⟩
abbrev main_call8_c : Ref sig .tc := ⟨.hbm, 84, rfl⟩
abbrev main_call8_v0 : Ref sig .tc := ⟨.hbm, 85, rfl⟩
abbrev main_call8_v1 : Ref sig .tc := ⟨.hbm, 86, rfl⟩
abbrev main_call8_c_0 : Ref sig .tc := ⟨.hbm, 87, rfl⟩
abbrev main_call8_v2 : Ref sig .tc := ⟨.hbm, 88, rfl⟩
abbrev main_call8_v3 : Ref sig .tc := ⟨.hbm, 89, rfl⟩
abbrev main_call8_v4 : Ref sig .tc := ⟨.hbm, 90, rfl⟩
abbrev main_call8_v5 : Ref sig .tc := ⟨.hbm, 91, rfl⟩
abbrev main_call8_c_1 : Ref sig .tc := ⟨.hbm, 92, rfl⟩
abbrev main_call8_c_2 : Ref sig .tc := ⟨.hbm, 93, rfl⟩
abbrev main_call8_v6 : Ref sig .tc := ⟨.hbm, 94, rfl⟩
abbrev main_call8_v7 : Ref sig .tc := ⟨.hbm, 95, rfl⟩
abbrev main_call8_v8 : Ref sig .tc := ⟨.hbm, 96, rfl⟩
abbrev main_call8_v9 : Ref sig .tc := ⟨.hbm, 97, rfl⟩
abbrev main_call8_v10 : Ref sig .tc := ⟨.hbm, 98, rfl⟩
abbrev main_call8_v11 : Ref sig .tc := ⟨.hbm, 99, rfl⟩
abbrev main_call8_c_3 : Ref sig .tc := ⟨.hbm, 100, rfl⟩
abbrev main_call8_v12 : Ref sig .tc := ⟨.hbm, 101, rfl⟩
abbrev main_call8_v13 : Ref sig .tc := ⟨.hbm, 102, rfl⟩
abbrev main_call8_cst : Ref sig .tc := ⟨.hbm, 103, rfl⟩
abbrev main_call8_v14 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_cst_11 : Ref sig .tc := ⟨.hbm, 108, rfl⟩
abbrev main_v36 : Ref sig .tc := ⟨.hbm, 109, rfl⟩
abbrev main_cst_12 : Ref sig .tc := ⟨.hbm, 110, rfl⟩
abbrev main_v37 : Ref sig .tc := ⟨.hbm, 111, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S_S512x100000 : S_.BroadcastsInDim S512x100000 (![] : Fin 0 → Fin S512x100000.rank)
  bcast_S512x1_S512x100000_0_1 : S512x1.BroadcastsInDim S512x100000 (![0, 1] : Fin 2 → Fin S512x100000.rank)
  bcast_S1x100000_S512x100000_0_1 : S1x100000.BroadcastsInDim S512x100000 (![0, 1] : Fin 2 → Fin S512x100000.rank)
  reducesTo_S512x100000_S512_d1 : S512x100000.ReducesTo [1] S512
  bcast_S_S512 : S_.BroadcastsInDim S512 (![] : Fin 0 → Fin S512.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  dot_S512x512_S100000x512_S512x100000_1_1_0_0_n_n_wf : DotDims.WF S512x512 S100000x512 S512x100000 [1] [1] [0] [0] [] []
  gather_S512x100000_S512x1x1_S512x1_n_1_0_0_1_2_11_wf : GatherDims.WF S512x100000 S512x1x1 S512x1 [] [1] [0] [1] [0] 2 ![1, 1]

variable [Facts₀]

def dot_S512x512_S100000x512_S512x100000_1_1_0_0_n_n : DotDims S512x512 S100000x512 S512x100000 where
  lhsContracting := [1]
  rhsContracting := [1]
  lhsNonContracting := [0]
  rhsNonContracting := [0]
  lhsBatch := []
  rhsBatch := []
  wf := dot_S512x512_S100000x512_S512x100000_1_1_0_0_n_n_wf
def gather_S512x100000_S512x1x1_S512x1_n_1_0_0_1_2_11 : GatherDims S512x100000 S512x1x1 S512x1 where
  offsetDims := []
  collapsedSliceDims := [1]
  operandBatchingDims := [0]
  startIndicesBatchingDims := [0]
  startIndexMap := [1]
  indexVectorDim := 2
  sliceSizes := ![1, 1]
  wf := gather_S512x100000_S512x1x1_S512x1_n_1_0_0_1_2_11_wf

class Facts : Prop extends Facts₀ where

variable [Facts]
-- ==== Proof.KerPieces.lean ====
/-
  What one grid point leaves in the three carried vectors and, at a half's last tile, in the three outputs:
  each is one covering store, whose value is a payload of the tile's blocks and of what the point before left.
-/
import proofs.«424565_j56710748176751_3_alg».proof.Proof.Gen.KernelIdeal.Frame
import Idealize.ShloMosaic.Lib.Pipeline.Value
import Idealize.ShloMosaic.Lib.Tactic

set_option maxRecDepth 16384

noncomputable section

namespace Cert.KernelIdeal.KerPieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S512x512 .bf16) (harg2 : arg2.IsWhole) (arg3 : Memref sig .tc .vmem S1000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole)

/-- The tile's logits, as the payload computes them from the three input blocks. -/
abbrev tileLogits (x0 : Vec F S512x512 .bf16) (x1 : Vec F S1000x512 .f32) (x2 : Vec F S512x1 .i32) : FVec F S512x1000 .f32 :=
  k0_pay14 (k0_pay9 x0 x1) (k0_pay10 i x2) (k0_pay11 i x0 x1 x2) (k0_pay12 i x0 x1 x2) k0_pay13

/-- The new running maximum over the old one `s0`. -/
abbrev newMax (x0 : Vec F S512x512 .bf16) (x1 : Vec F S1000x512 .f32) (x2 : Vec F S512x1 .i32) (s0 : Vec F S512x1 .f32) : FVec F S512x1 .f32 :=
  k0_pay15 (k0_pay9 x0 x1) (k0_pay10 i x2) (k0_pay11 i x0 x1 x2) (k0_pay12 i x0 x1 x2) k0_pay13 s0

/-- The new running sum over the old state `s0`, `s1`. -/
abbrev newSum (x0 : Vec F S512x512 .bf16) (x1 : Vec F S1000x512 .f32) (x2 : Vec F S512x1 .i32) (s0 s1 : Vec F S512x1 .f32) : FVec F S512x1 .f32 :=
  k0_pay16 (k0_pay9 x0 x1) (k0_pay10 i x2) (k0_pay11 i x0 x1 x2) (k0_pay12 i x0 x1 x2) k0_pay13 s0 s0 s1

/-- The new running target-logit sum over the old one `s2`. -/
abbrev newTgt (x0 : Vec F S512x512 .bf16) (x1 : Vec F S1000x512 .f32) (x2 : Vec F S512x1 .i32) (s2 : Vec F S512x1 .f32) : FVec F S512x1 .f32 :=
  k0_pay1 (k0_pay10 i x2) (tileLogits i x0 x1 x2) s2

/-! ## A half's first tile: the three vectors are reset (to −∞, 0, 0) and then updated -/

theorem sA0 (hc0 : cond0_0 i) (hc1 : ¬cond0_1 i) (x0 : Vec F S512x512 .bf16) (x1 : Vec F S1000x512 .f32) (x2 : Vec F S512x1 .i32) :
    sout0_A_0 c i arg2 harg2 arg3 harg3 arg4 harg4 arg5 harg5 arg6 harg6 arg7 harg7 arg8 harg8 arg9 harg9 arg10 harg10 hc0 hc1 x0 x1 x2 = k0_pay2 (newMax i x0 x1 x2 k0_pay6) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg8.read_unread, harg9.read_unread, harg10.read_unread,
    View.ld_unit_zero (S := S512x1) hz2, View.ld_unit_zero (S := S512x512) hz2, View.ld_unit_zero (S := S1000x512) hz2, View.readCov_unit_zero (S := S512x1) _ hz2]

theorem sA1 (hc0 : cond0_0 i) (hc1 : ¬cond0_1 i) (x0 : Vec F S512x512 .bf16) (x1 : Vec F S1000x512 .f32) (x2 : Vec F S512x1 .i32) :
    sout0_A_1 c i arg2 harg2 arg3 harg3 arg4 harg4 arg5 harg5 arg6 harg6 arg7 harg7 arg8 harg8 arg9 harg9 arg10 harg10 hc0 hc1 x0 x1 x2 = newSum i x0 x1 x2 k0_pay6 k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg8.read_unread, harg9.read_unread, harg10.read_unread,
    View.ld_unit_zero (S := S512x1) hz2, View.ld_unit_zero (S := S512x512) hz2, View.ld_unit_zero (S := S1000x512) hz2, View.readCov_unit_zero (S := S512x1) _ hz2]

theorem sA2 (hc0 : cond0_0 i) (hc1 : ¬cond0_1 i) (x0 : Vec F S512x512 .bf16) (x1 : Vec F S1000x512 .f32) (x2 : Vec F S512x1 .i32) :
    sout0_A_2 c i arg2 harg2 arg3 harg3 arg4 harg4 arg5 harg5 arg6 harg6 arg7 harg7 arg8 harg8 arg9 harg9 arg10 harg10 hc0 hc1 x0 x1 x2 = newTgt i x0 x1 x2 k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg8.read_unread, harg9.read_unread, harg10.read_unread,
    View.ld_unit_zero (S := S512x1) hz2, View.ld_unit_zero (S := S512x512) hz2, View.ld_unit_zero (S := S1000x512) hz2, View.readCov_unit_zero (S := S512x1) _ hz2]

/-! ## A middle tile: the three vectors are updated from what the tile before left -/

theorem sB0 (hc0 : ¬cond0_0 i) (hc1 : ¬cond0_1 i) (x0 : Vec F S512x512 .bf16) (x1 : Vec F S1000x512 .f32) (x2 : Vec F S512x1 .i32) (xs0 xs1 xs2 : Vec F S512x1 .f32) :
    sout0_B_0 c i arg2 harg2 arg3 harg3 arg4 harg4 arg5 harg5 arg6 harg6 arg7 harg7 arg8 harg8 arg9 harg9 arg10 harg10 hc0 hc1 x0 x1 x2 xs0 xs1 xs2 = k0_pay2 (newMax i x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg8.read_unread, harg9.read_unread, harg10.read_unread,
    View.ld_unit_zero (S := S512x1) hz2, View.ld_unit_zero (S := S512x512) hz2, View.ld_unit_zero (S := S1000x512) hz2]

theorem sB1 (hc0 : ¬cond0_0 i) (hc1 : ¬cond0_1 i) (x0 : Vec F S512x512 .bf16) (x1 : Vec F S1000x512 .f32) (x2 : Vec F S512x1 .i32) (xs0 xs1 xs2 : Vec F S512x1 .f32) :
    sout0_B_1 c i arg2 harg2 arg3 harg3 arg4 harg4 arg5 harg5 arg6 harg6 arg7 harg7 arg8 harg8 arg9 harg9 arg10 harg10 hc0 hc1 x0 x1 x2 xs0 xs1 xs2 = newSum i x0 x1 x2 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg8.read_unread, harg9.read_unread, harg10.read_unread,
    View.ld_unit_zero (S := S512x1) hz2, View.ld_unit_zero (S := S512x512) hz2, View.ld_unit_zero (S := S1000x512) hz2]

theorem sB2 (hc0 : ¬cond0_0 i) (hc1 : ¬cond0_1 i) (x0 : Vec F S512x512 .bf16) (x1 : Vec F S1000x512 .f32) (x2 : Vec F S512x1 .i32) (xs0 xs1 xs2 : Vec F S512x1 .f32) :
    sout0_B_2 c i arg2 harg2 arg3 harg3 arg4 harg4 arg5 harg5 arg6 harg6 arg7 harg7 arg8 harg8 arg9 harg9 arg10 harg10 hc0 hc1 x0 x1 x2 xs0 xs1 xs2 = newTgt i x0 x1 x2 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg8.read_unread, harg9.read_unread, harg10.read_unread,
    View.ld_unit_zero (S := S512x1) hz2, View.ld_unit_zero (S := S512x512) hz2, View.ld_unit_zero (S := S1000x512) hz2]

/-! ## A half's last tile: updated likewise, and then copied out -/

theorem sC0 (hc0 : ¬cond0_0 i) (hc1 : cond0_1 i) (x0 : Vec F S512x512 .bf16) (x1 : Vec F S1000x512 .f32) (x2 : Vec F S512x1 .i32) (xs0 xs1 xs2 : Vec F S512x1 .f32) :
    sout0_C_0 c i arg2 harg2 arg3 harg3 arg4 harg4 arg5 harg5 arg6 harg6 arg7 harg7 arg8 harg8 arg9 harg9 arg10 harg10 hc0 hc1 x0 x1 x2 xs0 xs1 xs2 = k0_pay2 (newMax i x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg8.read_unread, harg9.read_unread, harg10.read_unread,
    View.ld_unit_zero (S := S512x1) hz2, View.ld_unit_zero (S := S512x512) hz2, View.ld_unit_zero (S := S1000x512) hz2, View.readCov_unit_zero (S := S512x1) _ hz2]

theorem sC1 (hc0 : ¬cond0_0 i) (hc1 : cond0_1 i) (x0 : Vec F S512x512 .bf16) (x1 : Vec F S1000x512 .f32) (x2 : Vec F S512x1 .i32) (xs0 xs1 xs2 : Vec F S512x1 .f32) :
    sout0_C_1 c i arg2 harg2 arg3 harg3 arg4 harg4 arg5 harg5 arg6 harg6 arg7 harg7 arg8 harg8 arg9 harg9 arg10 harg10 hc0 hc1 x0 x1 x2 xs0 xs1 xs2 = newSum i x0 x1 x2 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg8.read_unread, harg9.read_unread, harg10.read_unread,
    View.ld_unit_zero (S := S512x1) hz2, View.ld_unit_zero (S := S512x512) hz2, View.ld_unit_zero (S := S1000x512) hz2, View.readCov_unit_zero (S := S512x1) _ hz2]

theorem sC2 (hc0 : ¬cond0_0 i) (hc1 : cond0_1 i) (x0 : Vec F S512x512 .bf16) (x1 : Vec F S1000x512 .f32) (x2 : Vec F S512x1 .i32) (xs0 xs1 xs2 : Vec F S512x1 .f32) :
    sout0_C_2 c i arg2 harg2 arg3 harg3 arg4 harg4 arg5 harg5 arg6 harg6 arg7 harg7 arg8 harg8 arg9 harg9 arg10 harg10 hc0 hc1 x0 x1 x2 xs0 xs1 xs2 = newTgt i x0 x1 x2 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg8.read_unread, harg9.read_unread, harg10.read_unread,
    View.ld_unit_zero (S := S512x1) hz2, View.ld_unit_zero (S := S512x512) hz2, View.ld_unit_zero (S := S1000x512) hz2, View.readCov_unit_zero (S := S512x1) _ hz2]

theorem oC3 (hc0 : ¬cond0_0 i) (hc1 : cond0_1 i) (x0 : Vec F S512x512 .bf16) (x1 : Vec F S1000x512 .f32) (x2 : Vec F S512x1 .i32) (xs0 xs1 xs2 : Vec F S512x1 .f32) :
    out0_C_3 c i arg2 harg2 arg3 harg3 arg4 harg4 arg5 harg5 arg6 harg6 arg7 harg7 arg8 harg8 arg9 harg9 arg10 harg10 hc0 hc1 x0 x1 x2 xs0 xs1 xs2 = k0_pay3 (k0_pay2 (newMax i x0 x1 x2 xs0)) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg8.read_unread, harg9.read_unread, harg10.read_unread,
    View.ld_unit_zero (S := S512x1) hz2, View.ld_unit_zero (S := S512x512) hz2, View.ld_unit_zero (S := S1000x512) hz2, View.readCov_unit_zero (S := S512x1) _ hz2]

theorem oC4 (hc0 : ¬cond0_0 i) (hc1 : cond0_1 i) (x0 : Vec F S512x512 .bf16) (x1 : Vec F S1000x512 .f32) (x2 : Vec F S512x1 .i32) (xs0 xs1 xs2 : Vec F S512x1 .f32) :
    out0_C_4 c i arg2 harg2 arg3 harg3 arg4 harg4 arg5 harg5 arg6 harg6 arg7 harg7 arg8 harg8 arg9 harg9 arg10 harg10 hc0 hc1 x0 x1 x2 xs0 xs1 xs2 = k0_pay4 (newSum i x0 x1 x2 xs0 xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg8.read_unread, harg9.read_unread, harg10.read_unread,
    View.ld_unit_zero (S := S512x1) hz2, View.ld_unit_zero (S := S512x512) hz2, View.ld_unit_zero (S := S1000x512) hz2, View.readCov_unit_zero (S := S512x1) _ hz2]

theorem oC5 (hc0 : ¬cond0_0 i) (hc1 : cond0_1 i) (x0 : Vec F S512x512 .bf16) (x1 : Vec F S1000x512 .f32) (x2 : Vec F S512x1 .i32) (xs0 xs1 xs2 : Vec F S512x1 .f32) :
    out0_C_5 c i arg2 harg2 arg3 harg3 arg4 harg4 arg5 harg5 arg6 harg6 arg7 harg7 arg8 harg8 arg9 harg9 arg10 harg10 hc0 hc1 x0 x1 x2 xs0 xs1 xs2 = k0_pay5 (newTgt i x0 x1 x2 xs2) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg8.read_unread, harg9.read_unread, harg10.read_unread,
    View.ld_unit_zero (S := S512x1) hz2, View.ld_unit_zero (S := S512x512) hz2, View.ld_unit_zero (S := S1000x512) hz2, View.readCov_unit_zero (S := S512x1) _ hz2]

end Cert.KernelIdeal.KerPieces

end
-- ==== Proof.KerBlocks.lean ====
/-
  The three input blocks a grid point sees, read off the arrays as the kernel region finds them: the normalised input
  and the target column are whole at every point; the weight block of point t is the thousand class rows from 1000·t.
-/
import proofs.«424565_j56710748176751_3_alg».proof.Proof.Gen.KernelIdeal.Frame
import Idealize.ShloMosaic.Lib.Pipeline.Value
import Idealize.ShloMosaic.Lib.ValueIdx

set_option maxRecDepth 16384

noncomputable section

namespace Cert.KernelIdeal.KerBlocks

open Idealize.ShloMosaic Idealize.ShloMosaic.TcCoe Idealize.SL.Sem
open Cert.KernelIdeal Cert.KernelIdeal.Gen ValueIdx

variable {F : FTy → Type} [FloatOps F]
variable (m : (ℓ : Loc nD τ sig) → Buf (Elt F) ℓ)

/-- The normalised input as point `t` sees it. -/
abbrev xblk (c : Dev nD) (t : Fin cfg0.N) : Vec F S512x512 .bf16 := iblk m c 0 t
/-- The weight tile of point `t`. -/
abbrev wblk (c : Dev nD) (t : Fin cfg0.N) : Vec F S1000x512 .f32 := iblk m c 1 t
/-- The target column as point `t` sees it. -/
abbrev tblk (c : Dev nD) (t : Fin cfg0.N) : Vec F S512x1 .i32 := iblk m c 2 t

theorem index0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem xblk_apply (c : Dev nD) (t : Fin cfg0.N) (r d : Fin 512) :
    xblk m c t (ix2 r d) = (V m c main_v5 : S512x512.Idx → F .bf16) (ix2 r d) := by
  show iblk m c 0 t (ix2 r d) = _
  unfold iblk
  rw [View.read_apply]
  show V m c main_v5 _ = V m c main_v5 _
  congr 1
  funext a
  apply Fin.ext
  match a with
  | ⟨0, _⟩ => show win0_0.index t 0 * 512 + 1 * r.val = r.val; rw [(index0 t).1]; omega
  | ⟨1, _⟩ => show win0_0.index t 1 * 512 + 1 * d.val = d.val; rw [(index0 t).2]; omega

/-- Row `j` of the weight tile of point `t` is class row `1000·t + j`. -/
theorem wblk_apply (c : Dev nD) (t : Fin cfg0.N) (j : Fin 1000) (d : Fin 512) (k : Fin 100000) (hk : k.val = t.val * 1000 + j.val) :
    wblk m c t (ix2 j d) = (V m c main_arg2 : S100000x512.Idx → F .f32) (ix2 k d) := by
  show iblk m c 1 t (ix2 j d) = _
  unfold iblk
  rw [View.read_apply]
  show V m c main_arg2 _ = V m c main_arg2 _
  congr 1
  funext a
  apply Fin.ext
  match a with
  | ⟨0, _⟩ => show win0_1.index t 0 * 1000 + 1 * j.val = k.val; rw [(index1 t).1, hk]; omega
  | ⟨1, _⟩ => show win0_1.index t 1 * 512 + 1 * d.val = d.val; rw [(index1 t).2]; omega

theorem tblk_apply (c : Dev nD) (t : Fin cfg0.N) (r : Fin 512) :
    tblk m c t (ix2 r (0 : Fin 1)) = (V m c main_v6 : S512x1.Idx → BitVec 32) (ix2 r (0 : Fin 1)) := by
  show iblk m c 2 t (ix2 r (0 : Fin 1)) = _
  unfold iblk
  rw [View.read_apply]
  show V m c main_v6 _ = V m c main_v6 _
  congr 1
  funext a
  apply Fin.ext
  match a with
  | ⟨0, _⟩ => show win0_2.index t 0 * 512 + 1 * r.val = r.val; rw [(index2 t).1]; omega
  | ⟨1, _⟩ => show win0_2.index t 1 * 1 + 1 * (0 : Fin 1).val = (0 : Fin 1).val; rw [(index2 t).2]; rfl

end Cert.KernelIdeal.KerBlocks

end
-- ==== Proof.ArcSpec.lean ====
/-
  The mathematics both programs compute, stated once over plain index types and the extended reals.

  Rows of the input and of the class-weight table are divided by the larger of their Euclidean norm and a small
  constant; the clipped inner product of a normalised input row with a normalised class row is the cosine of
  their angle. At the row's target class an additive angular margin replaces the cosine by
  cos(θ + m) = cos θ · cos m − sin θ · sin m (with sin θ = √(1 − cos² θ), clipped), or by a linear fallback
  when θ + m would pass π. The logits are 64 times these numbers; the result is the mean over the rows of
  the negative log-softmax of the logits at the target class.
-/
import Idealize.ShloMosaic.PureOps.Ideal
import Idealize.ShloMosaic.Lib.ValueIdx

noncomputable section

namespace Cert.ArcSpec

open Idealize.ShloMosaic

/-- The floor under a row norm. -/
abbrev epsN : EReal := Ideal.ofBits .f32 0x2B8CBCCC#32
/-- The clipping bounds, −(1 − 1e-7) and 1 − 1e-7 as f32. -/
abbrev lo : EReal := Ideal.ofBits .f32 0xBF7FFFFE#32
abbrev hi : EReal := Ideal.ofBits .f32 0x3F7FFFFE#32
abbrev one : EReal := Ideal.ofBits .f32 0x3F800000#32
/-- cos m and sin m of the margin m = 0.5, cos(π − m) and sin(π − m) · m, as f32. -/
abbrev cosM : EReal := Ideal.ofBits .f32 0x3F60A940#32
abbrev sinM : EReal := Ideal.ofBits .f32 0x3EF57744#32
abbrev thr : EReal := Ideal.ofBits .f32 0xBF60A940#32
abbrev mmC : EReal := Ideal.ofBits .f32 0x3E757744#32
/-- The logit scale 64. -/
abbrev scale : EReal := Ideal.ofBits .f32 0x42800000#32
/-- The number of rows, 512, as the mean's divisor. -/
abbrev rowsC : EReal := Ideal.ofBits .f32 0x44000000#32

/-- The floor-guarded Euclidean norm of row `r`. -/
def rowNorm {n d : ℕ} (x : Fin n → Fin d → EReal) (r : Fin n) : EReal :=
  max (Ideal.sqrt (0 + ∑ k : Fin d, x r k * x r k)) epsN

/-- Row `r` of `x` divided by its guarded norm. -/
def unit {n d : ℕ} (x : Fin n → Fin d → EReal) (r : Fin n) (k : Fin d) : EReal :=
  Ideal.div (x r k) (rowNorm x r)

def clip (v : EReal) : EReal := min hi (max lo v)

/-- The clipped cosine between input row `r` and class row `c`. -/
def cosine (x : Fin 512 → Fin 512 → EReal) (w : Fin 100000 → Fin 512 → EReal) (r : Fin 512) (c : Fin 100000) : EReal :=
  clip (∑ k : Fin 512, unit x r k * unit w c k)

/-- The margin applied to a cosine `v`. -/
def margin (v : EReal) : EReal :=
  Scalar.select (Ideal.cmp .ogt v thr) (v * cosM - Ideal.sqrt (clip (one - v * v)) * sinM) (v - mmC)

/-- Whether class `c` is row `r`'s target, as the one-bit word a comparison of 32-bit words gives. -/
def hot (tgt : Fin 512 → BitVec 32) (r : Fin 512) (c : Fin 100000) : BitVec 1 :=
  IntOp.cmpi .eq (tgt r) (BitVec.ofNat 32 c.val)

/-- The logits. -/
def logit (x : Fin 512 → Fin 512 → EReal) (tgt : Fin 512 → BitVec 32) (w : Fin 100000 → Fin 512 → EReal)
    (r : Fin 512) (c : Fin 100000) : EReal :=
  Scalar.select (hot tgt r c) (margin (cosine x w r c)) (cosine x w r c) * scale

/-! ## The result as the reference arranges it -/

/-- A row's largest logit. -/
def rowMax (L : Fin 512 → Fin 100000 → EReal) (r : Fin 512) : EReal :=
  max ⊥ ((Finset.univ : Finset (Fin 100000)).fold max ⊥ (fun c => L r c))

/-- A row's log-softmax at class `c`. -/
def logSoftmax (L : Fin 512 → Fin 100000 → EReal) (r : Fin 512) (c : Fin 100000) : EReal :=
  (L r c - rowMax L r) - Ideal.log (0 + ∑ c' : Fin 100000, Ideal.exp (L r c' - rowMax L r))

/-- The mean negative log-likelihood, with the target class of row `r` given as `t r`. -/
def meanNll (L : Fin 512 → Fin 100000 → EReal) (t : Fin 512 → Fin 100000) : EReal :=
  Ideal.div (0 + ∑ r : Fin 512, -(logSoftmax L r (t r))) rowsC

/-! ## The result as the kernel arranges it: the classes in two halves of fifty tiles of a thousand -/

/-- Class `j` of tile `k` of half `h` (meaningful for `k < 50`; clamped beyond). -/
def col (h : Fin 2) (k : ℕ) (j : Fin 1000) : Fin 100000 :=
  ⟨min ((h.val * 50 + k) * 1000 + j.val) 99999, by omega⟩

/-- The running maximum over the first `k` tiles of half `h`. -/
def runMax (L : Fin 512 → Fin 100000 → EReal) (h : Fin 2) : ℕ → Fin 512 → EReal
  | 0, _ => ⊥
  | k + 1, r => max (runMax L h k r) ((Finset.univ : Finset (Fin 1000)).fold max ⊥ (fun j => L r (col h k j)))

/-- The running sum of exponentials, rescaled to the running maximum. -/
def runSum (L : Fin 512 → Fin 100000 → EReal) (h : Fin 2) : ℕ → Fin 512 → EReal
  | 0, _ => 0
  | k + 1, r => Ideal.exp (runMax L h k r - runMax L h (k + 1) r) * runSum L h k r
      + ∑ j : Fin 1000, Ideal.exp (L r (col h k j) - runMax L h (k + 1) r)

/-- The running sum of the target logit (zero off the target). -/
def runTgt (L : Fin 512 → Fin 100000 → EReal) (tgt : Fin 512 → BitVec 32) (h : Fin 2) : ℕ → Fin 512 → EReal
  | 0, _ => 0
  | k + 1, r => runTgt L tgt h k r + ∑ j : Fin 1000, Scalar.select (hot tgt r (col h k j)) (L r (col h k j)) 0

/-- The larger of the two halves' maxima. -/
def bothMax (L : Fin 512 → Fin 100000 → EReal) (r : Fin 512) : EReal :=
  max (runMax L 0 50 r) (runMax L 1 50 r)

/-- The two halves' sums, each rescaled to the common maximum, added. -/
def bothSum (L : Fin 512 → Fin 100000 → EReal) (r : Fin 512) : EReal :=
  Ideal.exp (runMax L 0 50 r - bothMax L r) * runSum L 0 50 r
    + Ideal.exp (runMax L 1 50 r - bothMax L r) * runSum L 1 50 r

/-- A row's negative log-likelihood from the two halves' states. -/
def nllHalves (L : Fin 512 → Fin 100000 → EReal) (tgt : Fin 512 → BitVec 32) (r : Fin 512) : EReal :=
  Neg.neg ((runTgt L tgt 0 50 r + runTgt L tgt 1 50 r) - (bothMax L r + Ideal.log (bothSum L r)))

/-- The kernel's arrangement of the mean. -/
def meanNllHalves (L : Fin 512 → Fin 100000 → EReal) (tgt : Fin 512 → BitVec 32) : EReal :=
  Ideal.div (0 + ∑ r : Fin 512, nllHalves L tgt r) rowsC

end Cert.ArcSpec

end
-- ==== Proof.KerTileLogits.lean ====
/-
  One tile of the kernel's logits. At a grid point of half `h` and tile `k < 50` the kernel holds the normalised
  input (512 × 512), the tile's 1000 raw class rows and the 512 targets. Read entry by entry at the extended reals:

  • the tile's cosines (`k0_pay9`): each class row is scaled by the reciprocal of its floor-guarded Euclidean norm, and
    entry (r, j) is the clipped inner product of input row r with the scaled class row j — the cosine of row r with
    class `col h k j` (`tile_cos`);
  • the one-hot mask (`k0_pay10`): lane j carries the word (h · 50 + k) · 1000 + j, the class's number, with no
    wrap-around, and is compared with the row's target — `hot` (`tile_hot`);
  • the target cosine (`k0_pay11`): the lane sum of the cosines under the mask; when lane j holds the row's target it is
    the cosine there, since two lanes of one tile never carry the same word (`pay11_target`);
  • the logits (`k0_pay14`): under the mask the margin of the target cosine, else the cosine, times 64
    (`pay14_apply`); where the mask is set the target cosine is the entry's own cosine, so the entry is ArcSpec's
    `logit` in both cases (`tile_logits`).
-/
import proofs.«424565_j56710748176751_3_alg».proof.Proof.Gen.KernelIdeal.Skeleton
import proofs.«424565_j56710748176751_3_alg».proof.Proof.ArcSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Affine

noncomputable section

namespace Cert.KernelIdeal.KerTile

open Cert.KernelIdeal Cert.KernelIdeal.Gen Cert.ArcSpec Idealize.ShloMosaic Idealize.ShloMosaic.ValueIdx

section Layout
variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane sum of a `[1000, 512]` array reads, at row `j`, the sum over the row. -/
theorem laneSum_1000x512 (src : FVec Ideal S1000x512 .f32) (h : S1000x512.Reduces [1] S1000) (hφ : FKind.Formats .f32)
    (hacc : (0x00000000#32 : BitVec 32) = FKind.add.neutral .f32 hφ) (j : Fin 1000) :
    multiReduction (F := Ideal) .add [1] S1000 src 0x00000000#32 h hφ hacc (ix1 j) = ∑ d : Fin 512, src (ix2 j d) := by
  refine (Ideal.multiReduction_add_single src 0x00000000#32 h hφ hacc (ix1 j)).trans ?_
  refine Finset.sum_congr rfl fun d _ => congrArg src ?_
  funext a
  match a with
  | ⟨0, _⟩ => exact Fin.ext rfl
  | ⟨1, _⟩ => exact Fin.ext rfl

/-- A lane sum of a `[512, 1000]` array reads, at row `r`, the sum over the row. -/
theorem laneSum_512x1000 (src : FVec Ideal S512x1000 .f32) (h : S512x1000.Reduces [1] S512) (hφ : FKind.Formats .f32)
    (hacc : (0x00000000#32 : BitVec 32) = FKind.add.neutral .f32 hφ) (r : Fin 512) :
    multiReduction (F := Ideal) .add [1] S512 src 0x00000000#32 h hφ hacc (ix1 r) = ∑ j : Fin 1000, src (ix2 r j) := by
  refine (Ideal.multiReduction_add_single src 0x00000000#32 h hφ hacc (ix1 r)).trans ?_
  refine Finset.sum_congr rfl fun d _ => congrArg src ?_
  funext a
  match a with
  | ⟨0, _⟩ => exact Fin.ext rfl
  | ⟨1, _⟩ => exact Fin.ext rfl

theorem lhs_tile_0 (i : S512x1000.Idx) (q : dot_S512x512_S1000x512_S512x1000_1_1_0_0_n_n.contr.Idx) :
    (dot_S512x512_S1000x512_S512x1000_1_1_0_0_n_n.lhsIdx i q 0).val = (i 0).val := by
  unfold DotDims.lhsIdx
  rw [dif_neg (show ¬(0 : Fin S512x512.rank) ∈ dot_S512x512_S1000x512_S512x1000_1_1_0_0_n_n.lhsBatch by decide), dif_pos (show (0 : Fin S512x512.rank) ∈ dot_S512x512_S1000x512_S512x1000_1_1_0_0_n_n.lhsNonContracting by decide)]
  rfl
theorem lhs_tile_1 (i : S512x1000.Idx) (q : dot_S512x512_S1000x512_S512x1000_1_1_0_0_n_n.contr.Idx) :
    (dot_S512x512_S1000x512_S512x1000_1_1_0_0_n_n.lhsIdx i q 1).val = (q ⟨0, by decide⟩).val :=
  dot_S512x512_S1000x512_S512x1000_1_1_0_0_n_n.lhsIdx_val_of_single rfl i q
theorem rhs_tile_0 (i : S512x1000.Idx) (q : dot_S512x512_S1000x512_S512x1000_1_1_0_0_n_n.contr.Idx) :
    (dot_S512x512_S1000x512_S512x1000_1_1_0_0_n_n.rhsIdx i q 0).val = (i 1).val := by
  unfold DotDims.rhsIdx
  rw [dif_neg (show ¬(0 : Fin S1000x512.rank) ∈ dot_S512x512_S1000x512_S512x1000_1_1_0_0_n_n.rhsBatch by decide), dif_pos (show (0 : Fin S1000x512.rank) ∈ dot_S512x512_S1000x512_S512x1000_1_1_0_0_n_n.rhsNonContracting by decide)]
  rfl
theorem rhs_tile_1 (i : S512x1000.Idx) (q : dot_S512x512_S1000x512_S512x1000_1_1_0_0_n_n.contr.Idx) :
    (dot_S512x512_S1000x512_S512x1000_1_1_0_0_n_n.rhsIdx i q 1).val = (q ⟨0, by decide⟩).val :=
  dot_S512x512_S1000x512_S512x1000_1_1_0_0_n_n.rhsIdx_val_of_single rfl i q

/-- The tile's matrix product into a zero accumulator, entry `(r, j)`: the inner product of row `r` of the left
    operand with row `j` of the right one. -/
theorem matmul_tile_apply (lhs : FVec Ideal S512x512 .bf16) (rhs : FVec Ideal S1000x512 .bf16) (r : Fin 512) (j : Fin 1000) :
    matmul dot_S512x512_S1000x512_S512x1000_1_1_0_0_n_n none lhs rhs (constant (F := Ideal) S512x1000 .f32 0x00000000#32) (ix2 r j)
      = ∑ d : Fin 512, lhs (ix2 r d) * rhs (ix2 j d) := by
  simp only [matmul]
  rw [Ideal.matmul_constant_zero_apply, ← Equiv.sum_comp (ValueIdx.contrEquiv1 dot_S512x512_S1000x512_S512x1000_1_1_0_0_n_n 512 rfl rfl).symm]
  refine Finset.sum_congr rfl fun k _ => ?_
  have hk := ValueIdx.contrEquiv1_symm_val dot_S512x512_S1000x512_S512x1000_1_1_0_0_n_n 512 rfl rfl k
  have el : dot_S512x512_S1000x512_S512x1000_1_1_0_0_n_n.lhsIdx (ix2 r j) ((ValueIdx.contrEquiv1 dot_S512x512_S1000x512_S512x1000_1_1_0_0_n_n 512 rfl rfl).symm k) = ix2 r k := funext fun a => Fin.ext (by
    match a with
    | ⟨0, _⟩ => exact lhs_tile_0 _ _
    | ⟨1, _⟩ => exact (lhs_tile_1 _ _).trans hk)
  have er : dot_S512x512_S1000x512_S512x1000_1_1_0_0_n_n.rhsIdx (ix2 r j) ((ValueIdx.contrEquiv1 dot_S512x512_S1000x512_S512x1000_1_1_0_0_n_n 512 rfl rfl).symm k) = ix2 j k := funext fun a => Fin.ext (by
    match a with
    | ⟨0, _⟩ => exact rhs_tile_0 _ _
    | ⟨1, _⟩ => exact (rhs_tile_1 _ _).trans hk)
  rw [el, er]

/-- The tile's clipped cosines, entry `(r, j)`: the clipped inner product of input row `r` with class row `j` of the tile
    scaled by the reciprocal of its floor-guarded norm. -/
theorem pay9_apply (x0 : FVec Ideal S512x512 .bf16) (x1 : FVec Ideal S1000x512 .f32) (r : Fin 512) (j : Fin 1000) :
    k0_pay9 (F := Ideal) x0 x1 (ix2 r j)
      = clip (∑ d : Fin 512, x0 (ix2 r d) * (x1 (ix2 j d)
          * Ideal.div one (max (Ideal.sqrt (∑ d' : Fin 512, x1 (ix2 j d') * x1 (ix2 j d'))) epsN))) := by
  unfold k0_pay9 clip
  show min hi (max lo (matmul (F := Ideal) dot_S512x512_S1000x512_S512x1000_1_1_0_0_n_n none _ _ _ (ix2 r j))) = _
  refine congrArg (fun v => min hi (max lo v)) ?_
  rw [shapeCast_self]
  refine (matmul_tile_apply _ _ r j).trans ?_
  refine Finset.sum_congr rfl fun d _ => congrArg (x0 (ix2 r d) * ·) ?_
  show x1 (ix2 j d) * broadcastTo S1000x512 _ _ (ix2 j d) = _
  refine congrArg (x1 (ix2 j d) * ·) ?_
  refine (broadcastTo_a1_ab_apply _ _ j d).trans ?_
  show Ideal.div one (max (Ideal.sqrt (shapeCast S1000x1 _ _ (ix2 j (0 : Fin 1)))) epsN) = _
  refine congrArg (fun v => Ideal.div one (max (Ideal.sqrt v) epsN)) ?_
  refine (shapeCast_a_a1_apply _ _ j 0).trans ?_
  refine (laneSum_1000x512 _ _ _ _ j).trans ?_
  rfl

/-- Equality of words, as a one-bit word, does not depend on the order of its operands. -/
theorem cmpi_eq_comm {w : ℕ} (x y : BitVec w) : IntOp.cmpi .eq x y = IntOp.cmpi .eq y x := by
  by_cases hxy : x = y
  · subst hxy; rfl
  · have h1 : ¬IntOp.cmpi .eq x y = 1#1 := fun hh => hxy (IntOp.cmpi_eq.mp hh)
    have h2 : ¬IntOp.cmpi .eq y x = 1#1 := fun hh => hxy (IntOp.cmpi_eq.mp hh).symm
    rw [eq_zero_of_ne_one h1, eq_zero_of_ne_one h2]

/-- Class `j` of tile `k < 50` of half `h` is column `(h · 50 + k) · 1000 + j`. -/
theorem col_val (h : Fin 2) (k : ℕ) (hk : k < 50) (j : Fin 1000) : (col h k j).val = (h.val * 50 + k) * 1000 + j.val := by
  show min ((h.val * 50 + k) * 1000 + j.val) 99999 = _
  have := h.isLt; have := j.isLt; omega

/-- The word the kernel compares a target with at lane `j` of tile `(h, k)`: the class's number. -/
theorem laneWord (h : Fin 2) (k : ℕ) (hk : k < 50) (j : Fin 1000) :
    IntOp.addi (BitVec.ofNat 32 j.val)
        (Scalar.muli (Scalar.addi (Scalar.muli (BitVec.ofNat 32 h.val) 50#32) (BitVec.ofNat 32 k)) 1000#32)
      = BitVec.ofNat 32 (col h k j).val := by
  rw [col_val h k hk j]
  show BitVec.ofNat 32 j.val + (BitVec.ofNat 32 h.val * BitVec.ofNat 32 50 + BitVec.ofNat 32 k) * BitVec.ofNat 32 1000 = _
  rw [BitVec.ofNat_add, BitVec.ofNat_mul, BitVec.ofNat_add, BitVec.ofNat_mul, BitVec.add_comm]

/-- The tile's one-hot mask, entry `(r, j)`: whether class `col h k j` is row `r`'s target. -/
theorem tile_hot (i : grid0.Coords) (h : Fin 2) (k : ℕ) (hk : k < 50) (hi0 : (i 0).val = h.val) (hi1 : (i 1).val = k)
    (T : Fin 512 → BitVec 32) (x2 : Vec Ideal S512x1 .i32) (hx2 : ∀ r : Fin 512, x2 (ix2 r (0 : Fin 1)) = T r)
    (r : Fin 512) (j : Fin 1000) :
    k0_pay10 (F := Ideal) i x2 (ix2 r j) = hot T r (col h k j) := by
  have e1 : iota .tc S512x1000 32 [1] iota_S512x1000_d1_w32 (ix2 r j) = BitVec.ofNat 32 j.val :=
    iota_single_apply .tc S512x1000 32 1 _ (ix2 r j)
  have e2 : broadcastTo S512x1000 (shapeCast S512x1 x2 shapeCasts_S512x1_S512x1) broadcasts_S512x1_S512x1000 (ix2 r j) = T r := by
    rw [broadcastTo_a1_ab_apply, shapeCast_self, hx2]
  unfold k0_pay10 hot
  show IntOp.cmpi .eq (IntOp.addi (iota .tc S512x1000 32 [1] iota_S512x1000_d1_w32 (ix2 r j))
      (Scalar.muli (Scalar.addi (Scalar.muli (BitVec.ofNat 32 (i 0).val) 50#32) (BitVec.ofNat 32 (i 1).val)) 1000#32))
    (broadcastTo S512x1000 (shapeCast S512x1 x2 shapeCasts_S512x1_S512x1) broadcasts_S512x1_S512x1000 (ix2 r j)) = _
  rw [e1, e2, hi0, hi1, laneWord h k hk j]
  exact cmpi_eq_comm _ _

/-- Two lanes of one tile whose class numbers are the same 32-bit word are the same lane. -/
theorem col_word_inj (h : Fin 2) (k : ℕ) (hk : k < 50) (j j' : Fin 1000)
    (e : BitVec.ofNat 32 (col h k j').val = BitVec.ofNat 32 (col h k j).val) : j' = j := by
  have e' := congrArg BitVec.toNat e
  rw [BitVec.toNat_ofNat, BitVec.toNat_ofNat, col_val h k hk, col_val h k hk] at e'
  have h2 := h.isLt
  have hj := j.isLt
  have hj' := j'.isLt
  rw [Nat.mod_eq_of_lt (by omega), Nat.mod_eq_of_lt (by omega)] at e'
  exact Fin.ext (by omega)

/-- The tile's cosines are ArcSpec's: entry `(r, j)` is the clipped cosine of input row `r` and class `col h k j`. -/
theorem tile_cos (h : Fin 2) (k : ℕ)
    (X : Fin 512 → Fin 512 → EReal) (W : Fin 100000 → Fin 512 → EReal)
    (x0 : Vec Ideal S512x512 .bf16) (x1 : Vec Ideal S1000x512 .f32)
    (hx0 : ∀ (r : Fin 512) (d : Fin 512), x0 (ix2 r d) = unit X r d)
    (hx1 : ∀ (j : Fin 1000) (d : Fin 512), x1 (ix2 j d) = W (col h k j) d)
    (hrecip : ∀ (j : Fin 1000) (d : Fin 512),
      x1 (ix2 j d) * Ideal.div one (max (Ideal.sqrt (∑ d' : Fin 512, x1 (ix2 j d') * x1 (ix2 j d'))) epsN)
        = unit (fun j d => x1 (ix2 j d)) j d)
    (r : Fin 512) (j : Fin 1000) :
    k0_pay9 (F := Ideal) x0 x1 (ix2 r j) = cosine X W r (col h k j) := by
  rw [pay9_apply]
  unfold cosine
  refine congrArg clip (Finset.sum_congr rfl fun d _ => ?_)
  rw [hx0, hrecip]
  refine congrArg (unit X r d * ·) ?_
  unfold unit rowNorm
  simp only [hx1]

/-- The tile's target cosine, row `r`: the lane sum of the cosines under the one-hot mask. When lane `j` holds row
    `r`'s target class, it is the cosine at `(r, j)`, the mask being `1` at no other lane of the tile. -/
theorem pay11_target (i : grid0.Coords) (h : Fin 2) (k : ℕ) (hk : k < 50) (hi0 : (i 0).val = h.val) (hi1 : (i 1).val = k)
    (T : Fin 512 → BitVec 32) (x0 : Vec Ideal S512x512 .bf16) (x1 : Vec Ideal S1000x512 .f32)
    (x2 : Vec Ideal S512x1 .i32) (hx2 : ∀ r : Fin 512, x2 (ix2 r (0 : Fin 1)) = T r)
    (r : Fin 512) (j : Fin 1000) (hhot : hot T r (col h k j) = 1#1) (u : Fin 1) :
    k0_pay11 (F := Ideal) i x0 x1 x2 (ix2 r u) = k0_pay9 (F := Ideal) x0 x1 (ix2 r j) := by
  unfold k0_pay11
  refine (shapeCast_a_a1_apply _ _ r u).trans ?_
  refine (laneSum_512x1000 _ _ _ _ r).trans ?_
  rw [Finset.sum_eq_single j]
  · show Scalar.select (k0_pay10 (F := Ideal) i x2 (ix2 r j)) (k0_pay9 (F := Ideal) x0 x1 (ix2 r j)) _ = _
    rw [tile_hot i h k hk hi0 hi1 T x2 hx2 r j, hhot]
    exact select_one _ _
  · intro j' _ hne
    show Scalar.select (k0_pay10 (F := Ideal) i x2 (ix2 r j')) (k0_pay9 (F := Ideal) x0 x1 (ix2 r j'))
      (Ideal.ofBits .f32 0x00000000#32) = 0
    have hn : ¬hot T r (col h k j') = 1#1 := fun hh =>
      hne (col_word_inj h k hk j j' ((IntOp.cmpi_eq.mp hh).symm.trans (IntOp.cmpi_eq.mp hhot)))
    rw [tile_hot i h k hk hi0 hi1 T x2 hx2 r j', eq_zero_of_ne_one hn, select_zero, Ideal.ofBits_zero_f32]
  · intro hn
    exact absurd (Finset.mem_univ j) hn

/-- The tile's logits from its parts, entry `(r, j)`: under the mask the margin of the row's target cosine, else the
    cosine, times the scale. -/
theorem pay14_apply (v21 : FVec Ideal S512x1000 .f32) (v31 : IVec S512x1000 1) (v35 v36 v37 : FVec Ideal S512x1 .f32)
    (r : Fin 512) (j : Fin 1000) :
    k0_pay14 (F := Ideal) v21 v31 v35 v36 v37 (ix2 r j)
      = Scalar.select (v31 (ix2 r j))
          (Scalar.select (Ideal.cmp .ogt (v35 (ix2 r (0 : Fin 1))) thr)
            (v35 (ix2 r (0 : Fin 1)) * cosM
              - Ideal.sqrt (clip (v37 (ix2 r (0 : Fin 1)) - v36 (ix2 r (0 : Fin 1)))) * sinM)
            (v35 (ix2 r (0 : Fin 1)) - mmC))
          (v21 (ix2 r j)) * scale := by
  unfold k0_pay14
  show Scalar.select (v31 (ix2 r j)) (broadcastTo S512x1000 _ _ (ix2 r j)) (v21 (ix2 r j)) * scale = _
  refine congrArg (fun v => Scalar.select (v31 (ix2 r j)) v (v21 (ix2 r j)) * scale) ?_
  refine (broadcastTo_a1_ab_apply _ _ r j).trans ?_
  refine (congrFun (shapeCast_self _ _) _).trans ?_
  rfl

/-- One tile's logits: the payload `k0_pay14` over the tile's cosines, one-hot mask and target cosine is, entry
    `(r, j)`, the logit of row `r` at class `col h k j`. -/
theorem tile_logits (i : grid0.Coords) (h : Fin 2) (k : ℕ) (hk : k < 50) (hi0 : (i 0).val = h.val) (hi1 : (i 1).val = k)
    (X : Fin 512 → Fin 512 → EReal) (T : Fin 512 → BitVec 32) (W : Fin 100000 → Fin 512 → EReal)
    (x0 : Vec Ideal S512x512 .bf16) (x1 : Vec Ideal S1000x512 .f32) (x2 : Vec Ideal S512x1 .i32)
    (hx0 : ∀ (r : Fin 512) (d : Fin 512), x0 (ix2 r d) = unit X r d)
    (hx1 : ∀ (j : Fin 1000) (d : Fin 512), x1 (ix2 j d) = W (col h k j) d)
    (hx2 : ∀ r : Fin 512, x2 (ix2 r (0 : Fin 1)) = T r)
    (hrecip : ∀ (j : Fin 1000) (d : Fin 512),
      x1 (ix2 j d) * Ideal.div one (max (Ideal.sqrt (∑ d' : Fin 512, x1 (ix2 j d') * x1 (ix2 j d'))) epsN)
        = unit (fun j d => x1 (ix2 j d)) j d)
    (r : Fin 512) (j : Fin 1000) :
    k0_pay14 (F := Ideal) (k0_pay9 x0 x1) (k0_pay10 i x2) (k0_pay11 i x0 x1 x2) (k0_pay12 i x0 x1 x2) k0_pay13 (ix2 r j)
      = logit X T W r (col h k j) := by
  rw [pay14_apply, tile_hot i h k hk hi0 hi1 T x2 hx2 r j, tile_cos h k X W x0 x1 hx0 hx1 hrecip r j]
  unfold logit
  by_cases hhot : hot T r (col h k j) = 1#1
  · have ht : k0_pay11 (F := Ideal) i x0 x1 x2 (ix2 r (0 : Fin 1)) = cosine X W r (col h k j) :=
      (pay11_target i h k hk hi0 hi1 T x0 x1 x2 hx2 r j hhot 0).trans (tile_cos h k X W x0 x1 hx0 hx1 hrecip r j)
    have h12 : k0_pay12 (F := Ideal) i x0 x1 x2 (ix2 r (0 : Fin 1))
        = cosine X W r (col h k j) * cosine X W r (col h k j) := by
      unfold k0_pay12
      show k0_pay11 (F := Ideal) i x0 x1 x2 (ix2 r (0 : Fin 1)) * k0_pay11 (F := Ideal) i x0 x1 x2 (ix2 r (0 : Fin 1)) = _
      rw [ht]
    have h13 : k0_pay13 (F := Ideal) (ix2 r (0 : Fin 1)) = one := rfl
    rw [ht, h12, h13]
    rfl
  · rw [eq_zero_of_ne_one hhot, select_zero, select_zero]

end Cert.KernelIdeal.KerTile

end
-- ==== Proof.KerTileState.lean ====
/-
  The three state vectors of the online softmax, read at a row.

  Per tile of a thousand classes the kernel carries, for each of the 512 rows, the running maximum of the logits,
  the running sum of their exponentials rescaled to that maximum, and the running sum of the target logit. Here
  each update is read at row r, over the tile's logits Lt r j and its target mask Ht r j given as functions:
  the new maximum is the old one against the fold of max over the tile's thousand logits; the new sum is
  exp (old maximum − new maximum) · old sum plus the sum over the tile of exp (logit − new maximum); the new
  target sum is the old one plus the sum over the tile of the logit where the mask is set and zero elsewhere.
  The copies out read the same entry (a 512×1 vector viewed 1×512×1), and the resets are ⊥, 0 and 0.

  A lane reduction takes axis 1 of a 512×1000 vector away and a shape cast puts a unit axis back: the entry (r, 0)
  of the cast is the entry r of the reduced vector, and the reduced entry r runs over the entries (r, j).
-/
import proofs.«424565_j56710748176751_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerTile

open Idealize.ShloMosaic Idealize.ShloMosaic.ValueIdx Cert.KernelIdeal.Gen

namespace State

/-! ## Two keepdims column forms read at an index -/

section Layout
variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's reduction over the tile -/

/-- The source index over row r with lane j inserted is (r, j). -/
theorem lift_row (r : Fin 512) (j : Fin 1000) :
    reduces_S512x1000_S512.lift (ix1 r) j = ix2 r j := by
  funext a
  match a with
  | ⟨0, _⟩ => exact Fin.ext rfl
  | ⟨1, _⟩ => exact Fin.ext rfl

/-- A lane sum kept as a column, at (r, 0): the sum of row r. -/
theorem rowSum_apply (src : FVec Ideal S512x1000 .f32) (r : Fin 512) :
    shapeCast S512x1 (multiReduction (F := Ideal) .add [1] S512 src 0x00000000#32 reduces_S512x1000_S512 (.inl rfl) rfl)
        shapeCasts_S512_S512x1 (ix2 r (0 : Fin 1))
      = ∑ j : Fin 1000, src (ix2 r j) := by
  refine (shapeCast_a_a1_apply _ _ r 0).trans ?_
  refine (Ideal.multiReduction_add_single src 0x00000000#32 reduces_S512x1000_S512 (.inl rfl) rfl (ix1 r)).trans ?_
  exact Finset.sum_congr rfl fun j _ => congrArg src (lift_row r j)

/-- The pattern 0xFF800000 denotes ⊥. -/
theorem ofBits_negInf : FloatOps.ofBits (F := Ideal) .f32 0xFF800000#32 = (⊥ : EReal) := by
  show Ideal.ofBits .f32 0xFF800000#32 = ⊥
  simp [Ideal.ofBits, Ideal.ieee]

/-- A lane maximum kept as a column, at (r, 0): the fold of max from ⊥ over row r. -/
theorem rowMax_apply (src : FVec Ideal S512x1000 .f32) (r : Fin 512) :
    shapeCast S512x1 (multiReduction (F := Ideal) .maximumf [1] S512 src 0xFF800000#32 reduces_S512x1000_S512 (.inl rfl) rfl)
        shapeCasts_S512_S512x1 (ix2 r (0 : Fin 1))
      = (Finset.univ : Finset (Fin 1000)).fold max ⊥ (fun j => src (ix2 r j)) := by
  refine (shapeCast_a_a1_apply _ _ r 0).trans ?_
  refine (Ideal.multiReduction_maximumf_single src 0xFF800000#32 reduces_S512x1000_S512 (.inl rfl) rfl (ix1 r)).trans ?_
  have hf : (src ∘ reduces_S512x1000_S512.lift (ix1 r)) = fun j : Fin 1000 => src (ix2 r j) :=
    funext fun j => congrArg src (lift_row r j)
  exact congrArg₂ (fun (b : EReal) (f : Fin 1000 → EReal) => (Finset.univ : Finset (Fin 1000)).fold max b f) ofBits_negInf hf

end State

open State

/-! ## The state updates at a row -/

section Tile

variable (v21 : FVec Ideal S512x1000 .f32) (v31 : IVec S512x1000 1) (v35 v36 v37 : FVec Ideal S512x1 .f32)
  (Lt : Fin 512 → Fin 1000 → EReal) (Ht : Fin 512 → Fin 1000 → BitVec 1)
  (hL : ∀ (r : Fin 512) (j : Fin 1000), k0_pay14 (F := Ideal) v21 v31 v35 v36 v37 (ix2 r j) = Lt r j)
  (hH : ∀ (r : Fin 512) (j : Fin 1000), v31 (ix2 r j) = Ht r j)

include hL in
/-- The new running maximum: the old one against the largest of the tile's logits of the row. -/
theorem pay15_apply (v61 : Vec Ideal S512x1 .f32) (r : Fin 512) :
    k0_pay15 (F := Ideal) v21 v31 v35 v36 v37 v61 (ix2 r (0 : Fin 1))
      = max (v61 (ix2 r 0)) ((Finset.univ : Finset (Fin 1000)).fold max ⊥ (fun j => Lt r j)) := by
  unfold k0_pay15
  refine (maximumf_apply (φ := .f32) v61 _ (ix2 r (0 : Fin 1))).trans ?_
  refine congrArg (max (v61 (ix2 r 0))) ?_
  refine (rowMax_apply _ r).trans ?_
  exact congrArg (fun f : Fin 1000 → EReal => (Finset.univ : Finset (Fin 1000)).fold max ⊥ f) (funext fun j => hL r j)

include hL in
/-- The new running sum: the old one rescaled from the old maximum to the new, plus the tile's exponentials
    taken against the new maximum. -/
theorem pay16_apply (v61 v63 v69 : Vec Ideal S512x1 .f32) (r : Fin 512) :
    k0_pay16 (F := Ideal) v21 v31 v35 v36 v37 v61 v63 v69 (ix2 r (0 : Fin 1))
      = Ideal.exp (v63 (ix2 r 0) - k0_pay15 (F := Ideal) v21 v31 v35 v36 v37 v61 (ix2 r 0)) * v69 (ix2 r 0)
        + ∑ j : Fin 1000, Ideal.exp (Lt r j - k0_pay15 (F := Ideal) v21 v31 v35 v36 v37 v61 (ix2 r 0)) := by
  unfold k0_pay16
  refine (congrFun (shapeCast_self _ shapeCasts_S512x1_S512x1) (ix2 r (0 : Fin 1))).trans ?_
  show Ideal.exp (v63 (ix2 r 0) - k0_pay15 (F := Ideal) v21 v31 v35 v36 v37 v61 (ix2 r 0)) * v69 (ix2 r 0)
      + shapeCast S512x1 (multiReduction (F := Ideal) .add [1] S512
          (exp (subf (k0_pay14 (F := Ideal) v21 v31 v35 v36 v37)
            (broadcastTo S512x1000 (k0_pay15 (F := Ideal) v21 v31 v35 v36 v37 v61) broadcasts_S512x1_S512x1000)))
          0x00000000#32 reduces_S512x1000_S512 (.inl rfl) rfl) shapeCasts_S512_S512x1 (ix2 r (0 : Fin 1)) = _
  refine congrArg (fun z : EReal => Ideal.exp (v63 (ix2 r 0) - k0_pay15 (F := Ideal) v21 v31 v35 v36 v37 v61 (ix2 r 0)) * v69 (ix2 r 0) + z) ?_
  refine (rowSum_apply _ r).trans ?_
  refine Finset.sum_congr rfl fun j _ => ?_
  show Ideal.exp (k0_pay14 (F := Ideal) v21 v31 v35 v36 v37 (ix2 r j)
      - broadcastTo S512x1000 (k0_pay15 (F := Ideal) v21 v31 v35 v36 v37 v61) broadcasts_S512x1_S512x1000 (ix2 r j)) = _
  rw [hL r j, broadcastTo_a1_ab_apply]

include hH in
/-- The new running target-logit sum: the old one plus the tile's logit where the mask is set. -/
theorem pay1_apply (v58 : FVec Ideal S512x1000 .f32) (hL58 : ∀ (r : Fin 512) (j : Fin 1000), v58 (ix2 r j) = Lt r j)
    (v77 : Vec Ideal S512x1 .f32) (r : Fin 512) :
    k0_pay1 (F := Ideal) v31 v58 v77 (ix2 r (0 : Fin 1))
      = v77 (ix2 r 0) + ∑ j : Fin 1000, Scalar.select (Ht r j) (Lt r j) 0 := by
  unfold k0_pay1
  refine (congrFun (shapeCast_self _ shapeCasts_S512x1_S512x1) (ix2 r (0 : Fin 1))).trans ?_
  show v77 (ix2 r 0)
      + shapeCast S512x1 (multiReduction (F := Ideal) .add [1] S512
          (select v31 v58 (broadcast S512x1000 (Scalar.ofBits (F := Ideal) .f32 0x00000000#32)))
          0x00000000#32 reduces_S512x1000_S512 (.inl rfl) rfl) shapeCasts_S512_S512x1 (ix2 r (0 : Fin 1)) = _
  refine congrArg (fun z : EReal => v77 (ix2 r 0) + z) ?_
  refine (rowSum_apply _ r).trans ?_
  refine Finset.sum_congr rfl fun j _ => ?_
  show Scalar.select (v31 (ix2 r j)) (v58 (ix2 r j)) (Ideal.ofBits .f32 0x00000000#32) = _
  rw [hH r j, hL58 r j, Ideal.ofBits_zero_f32]

end Tile

/-! ## The copies out and the resets -/

/-- The maximum stored back: the same entry. -/
theorem pay2_apply (v : FVec Ideal S512x1 .f32) (r : Fin 512) :
    k0_pay2 (F := Ideal) v (ix2 r (0 : Fin 1)) = v (ix2 r 0) :=
  congrFun (shapeCast_self v shapeCasts_S512x1_S512x1) (ix2 r (0 : Fin 1))

/-- A 512×1 vector viewed 1×512×1 reads, at (0, r, 0), its entry (r, 0). -/
theorem pay3_apply (v : Vec Ideal S512x1 .f32) (r : Fin 512) :
    k0_pay3 (F := Ideal) v (ix3 (0 : Fin 1) r (0 : Fin 1)) = v (ix2 r 0) :=
  shapeCast_ab_1ab_apply v shapeCasts_S512x1_S1x512x1 0 r 0

theorem pay4_apply (v : Vec Ideal S512x1 .f32) (r : Fin 512) :
    k0_pay4 (F := Ideal) v (ix3 (0 : Fin 1) r (0 : Fin 1)) = v (ix2 r 0) :=
  shapeCast_ab_1ab_apply v shapeCasts_S512x1_S1x512x1 0 r 0

theorem pay5_apply (v : Vec Ideal S512x1 .f32) (r : Fin 512) :
    k0_pay5 (F := Ideal) v (ix3 (0 : Fin 1) r (0 : Fin 1)) = v (ix2 r 0) :=
  shapeCast_ab_1ab_apply v shapeCasts_S512x1_S1x512x1 0 r 0

/-- The running maximum starts at ⊥ … -/
theorem pay6_apply (r : Fin 512) : k0_pay6 (F := Ideal) (ix2 r (0 : Fin 1)) = (⊥ : EReal) := by
  unfold k0_pay6
  refine (congrFun (shapeCast_self _ shapeCasts_S512x1_S512x1) (ix2 r (0 : Fin 1))).trans ?_
  exact ofBits_negInf

/-- … the running sum at 0 … -/
theorem pay7_apply (r : Fin 512) : k0_pay7 (F := Ideal) (ix2 r (0 : Fin 1)) = (0 : EReal) := by
  unfold k0_pay7
  refine (congrFun (shapeCast_self _ shapeCasts_S512x1_S512x1) (ix2 r (0 : Fin 1))).trans ?_
  exact Ideal.ofBits_zero_f32

/-- … and the running target-logit sum at 0. -/
theorem pay8_apply (r : Fin 512) : k0_pay8 (F := Ideal) (ix2 r (0 : Fin 1)) = (0 : EReal) := by
  unfold k0_pay8
  refine (congrFun (shapeCast_self _ shapeCasts_S512x1_S512x1) (ix2 r (0 : Fin 1))).trans ?_
  exact Ideal.ofBits_zero_f32

end Cert.KernelIdeal.KerTile

end
-- ==== Proof.KerHostPre.lean ====
/-
  What the kernel finds in its first and third operands.

  Before the kernel runs, the host divides each row of the 512 × 512 input by the larger of the row's Euclidean
  norm and a small constant, and narrows the quotient to bf16 (the identity on the extended reals); it also
  reshapes the 512 target classes into a 512 × 1 column. Read at an index, the first is the row-normalised
  input `ArcSpec.unit x r d`, the second the target of row `r`.
-/
import proofs.«424565_j56710748176751_3_alg».proof.Proof.Gen.KernelIdeal.Frame.Runs
import proofs.«424565_j56710748176751_3_alg».proof.Proof.ArcSpec
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.KerHost

open Cert.KernelIdeal Cert.KernelIdeal.Gen Idealize.ShloMosaic Idealize.ShloMosaic.TcCoe Idealize.SL.Sem
open Idealize.ShloMosaic.StableHlo Idealize.ShloMosaic.ValueIdx

/-! ## The normalised input -/

/-- The input divided row by row by its floor-guarded Euclidean norm, as the host operations compose it:
    x / broadcast (max (sqrt (broadcast (0 + Σ x·x))) (broadcast ε)), narrowed to bf16. -/
def hostXhat (x : FVec Ideal S512x512 .f32) : FVec Ideal S512x512 .bf16 :=
  truncf .bf16 (Host.divf x (broadcastInDim S512x512 ![0, 1] bcast_S512x1_S512x512_0_1
    (maximumf (Host.sqrt (broadcastInDim S512x1 ![0] bcast_S512_S512x1_0
      (Host.reduceAdd (mulf x x) (constant (F := Ideal) S_ .f32 0x00000000#32) reducesTo_S512x512_S512_d1 h_S_)))
      (broadcastInDim S512x1 ![] bcast_S_S512x1 (constant (F := Ideal) S_ .f32 0x2B8CBCCC#32))))) bitsLt_bf16_f32

/-- The kernel's first operand is that term of the launched input. -/
theorem V_main_v5_eq (m : (ℓ : Loc nD τ sig) → Buf (Elt Ideal) ℓ) (c : Dev nD) :
    (V m c main_v5 : S512x512.Idx → EReal) = hostXhat (m ((c : Thread nD τ).loc main_arg0)) := by
  dsimp only [Gen.V, Gen.V0]
  simp only [Gen.hostOps0, Gen.hostOps0_1, List.flatten_cons, List.flatten_nil, List.append_nil, List.cons_append,
    List.nil_append]
  after_results
  rfl

/-- The row sums of squares, read at a row: zero plus the sum over the row. -/
theorem preRowSq_apply (x : FVec Ideal S512x512 .f32) (r : Fin 512) :
    (Host.reduceAdd (mulf x x) (constant (F := Ideal) S_ .f32 0x00000000#32) reducesTo_S512x512_S512_d1 h_S_
        : FVec Ideal S512 .f32) (ix1 r)
      = 0 + ∑ k : Fin 512, x (ix2 r k) * x (ix2 r k) := by
  generalize hy : mulf x x = y
  simp only [Host.reduceAdd, Ideal.hostReduceAdd_def]
  rw [Ideal.hostReduceAdd_single reducesTo_S512x512_S512_d1 (by decide)]
  subst hy
  have hz : (constant (F := Ideal) S_ .f32 0x00000000#32) (Shape.Idx.first h_S_) = 0 := Ideal.ofBits_zero_f32
  rw [hz]
  refine congrArg (0 + ·) (Finset.sum_congr rfl fun k _ => ?_)
  have e : ∀ h : S512x512.Reduces [1] S512, h.lift (ix1 r) k = ix2 r k := fun h =>
    funext fun a => Fin.ext (by match a with | ⟨0, _⟩ => rfl | ⟨1, _⟩ => rfl)
  rw [e]
  rfl

/-- The guarded row norms as a column, read at a row. -/
theorem preNormCol_apply (x : FVec Ideal S512x512 .f32) (r : Fin 512) :
    (maximumf (Host.sqrt (broadcastInDim S512x1 ![0] bcast_S512_S512x1_0
      (Host.reduceAdd (mulf x x) (constant (F := Ideal) S_ .f32 0x00000000#32) reducesTo_S512x512_S512_d1 h_S_)))
      (broadcastInDim S512x1 ![] bcast_S_S512x1 (constant (F := Ideal) S_ .f32 0x2B8CBCCC#32))
        : FVec Ideal S512x1 .f32) (ix2 r (0 : Fin 1))
      = Cert.ArcSpec.rowNorm (fun r d => x (ix2 r d)) r := by
  unfold Cert.ArcSpec.rowNorm
  rw [maximumf_apply]
  refine congrArg₂ max ?_ ?_
  · show Ideal.sqrt _ = Ideal.sqrt _
    refine congrArg Ideal.sqrt ?_
    refine (broadcastInDim_apply _ bcast_S512_S512x1_0 _ (ix2 r (0 : Fin 1)) (ix1 r) (fun a => match a with
      | ⟨0, _⟩ => by show r.val = if (512 : Nat) = 1 then 0 else r.val; rw [if_neg (by decide)])).trans ?_
    exact preRowSq_apply x r
  · exact broadcastInDim_scalar_apply bcast_S_S512x1 _ _

/-- The composed term read at (r, d) is the row-normalised input. -/
theorem hostXhat_apply (x : FVec Ideal S512x512 .f32) (r d : Fin 512) :
    hostXhat x (ix2 r d) = Cert.ArcSpec.unit (fun r d => x (ix2 r d)) r d := by
  unfold hostXhat Cert.ArcSpec.unit
  rw [truncf_apply, hostDivf_apply]
  refine congrArg (Ideal.div (x (ix2 r d))) ?_
  refine (broadcastInDim_apply _ bcast_S512x1_S512x512_0_1 _ (ix2 r d) (ix2 r (0 : Fin 1)) (fun a => match a with
    | ⟨0, _⟩ => by show r.val = if (512 : Nat) = 1 then 0 else r.val; rw [if_neg (by decide)]
    | ⟨1, _⟩ => by show 0 = if (1 : Nat) = 1 then 0 else d.val; rw [if_pos rfl])).trans ?_
  exact preNormCol_apply x r

/-- The kernel's first operand at (r, d): row r of the launched input divided by its guarded norm, at d. -/
theorem V_xhat (m : (ℓ : Loc nD τ sig) → Buf (Elt Ideal) ℓ) (c : Dev nD) (r d : Fin 512) :
    (V m c main_v5 : S512x512.Idx → EReal) (ix2 r d)
      = Cert.ArcSpec.unit (fun r d => (m ((c : Thread nD τ).loc main_arg0) : S512x512.Idx → EReal) (ix2 r d)) r d :=
  (congrFun (V_main_v5_eq m c) (ix2 r d)).trans (hostXhat_apply _ r d)

/-! ## The targets as a column -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The kernel's third operand is the reshape of the launched targets. -/
theorem V_main_v6_eq (m : (ℓ : Loc nD τ sig) → Buf (Elt Ideal) ℓ) (c : Dev nD) :
    (V m c main_v6 : S512x1.Idx → BitVec 32)
      = shapeCast S512x1 (m ((c : Thread nD τ).loc main_arg1) : S512.Idx → BitVec 32) shapeCasts_S512_S512x1 := by
  dsimp only [Gen.V, Gen.V0]
  simp only [Gen.hostOps0, Gen.hostOps0_1, List.flatten_cons, List.flatten_nil, List.append_nil, List.cons_append,
    List.nil_append]
  after_results
  rfl

/-- The kernel's third operand at (r, 0): the launched target of row r. -/
theorem V_target (m : (ℓ : Loc nD τ sig) → Buf (Elt Ideal) ℓ) (c : Dev nD) (r : Fin 512) :
    (V m c main_v6 : S512x1.Idx → BitVec 32) (ix2 r (0 : Fin 1))
      = (m ((c : Thread nD τ).loc main_arg1) : S512.Idx → BitVec 32) (ix1 r) :=
  (congrFun (V_main_v6_eq m c) (ix2 r (0 : Fin 1))).trans (shapeCast_a_a1_apply _ shapeCasts_S512_S512x1 r 0)

end Cert.KernelIdeal.KerHost

end
-- ==== Proof.ArcReal.lean ====
/-
  The constants of the angular-margin loss as real numbers, and the facts about the guarded norm, the
  normalised rows and the logits that follow from them: the guarded norm is positive, dividing by it is
  multiplying by its reciprocal, and every logit is a real number.
-/
import proofs.«424565_j56710748176751_3_alg».proof.Proof.ArcSpec
import Mathlib.Data.EReal.Basic
import Mathlib.Data.EReal.Operations
import Mathlib.Data.EReal.Inv
import Mathlib.Analysis.Real.Sqrt

noncomputable section

namespace Cert.ArcSpec

open Idealize.ShloMosaic

/-! ## The patterns as reals

Each pattern is a normal number (2²³ + T) · 2^(E − 150) with sign; the quotients below are those numbers. -/

theorem one_eq : one = 1 := by
  simp [Ideal.ofBits, Ideal.ieee, -EReal.coe_mul]; norm_num

/-- The norm floor is 9223372 · 2⁻⁶³ (about 1e-12). -/
theorem epsN_eq : epsN = ((9223372 / 2 ^ 63 : ℝ) : EReal) := by
  simp [Ideal.ofBits, Ideal.ieee, -EReal.coe_mul]; norm_num

/-- The upper clipping bound is 1 − 2⁻²³. -/
theorem hi_eq : hi = ((16777214 / 16777216 : ℝ) : EReal) := by
  simp [Ideal.ofBits, Ideal.ieee, -EReal.coe_mul]; norm_num

theorem lo_eq : lo = ((-(16777214 / 16777216) : ℝ) : EReal) := by
  simp [Ideal.ofBits, Ideal.ieee, -EReal.coe_mul]; norm_num

theorem cosM_eq : cosM = ((14723392 / 16777216 : ℝ) : EReal) := by
  simp [Ideal.ofBits, Ideal.ieee, -EReal.coe_mul]; norm_num

theorem sinM_eq : sinM = ((16086852 / 33554432 : ℝ) : EReal) := by
  simp [Ideal.ofBits, Ideal.ieee, -EReal.coe_mul]; norm_num

theorem thr_eq : thr = ((-(14723392 / 16777216) : ℝ) : EReal) := by
  simp [Ideal.ofBits, Ideal.ieee, -EReal.coe_mul]; norm_num

theorem mmC_eq : mmC = ((16086852 / 67108864 : ℝ) : EReal) := by
  simp [Ideal.ofBits, Ideal.ieee, -EReal.coe_mul]; norm_num

theorem scale_eq : scale = ((64 : ℝ) : EReal) := by
  simp [Ideal.ofBits, Ideal.ieee, -EReal.coe_mul]; norm_num

theorem rowsC_eq : rowsC = ((512 : ℝ) : EReal) := by
  simp [Ideal.ofBits, Ideal.ieee, -EReal.coe_mul]; norm_num

theorem epsN_pos : (0 : EReal) < epsN := by
  rw [epsN_eq, EReal.coe_pos]; norm_num

theorem epsN_ne_top : epsN ≠ ⊤ := by
  rw [epsN_eq]; exact EReal.coe_ne_top _

theorem lo_eq_neg_hi : lo = -hi := by
  rw [lo_eq, hi_eq, EReal.coe_neg]

theorem thr_eq_neg_cosM : thr = -cosM := by
  rw [thr_eq, cosM_eq, EReal.coe_neg]

theorem hi_real : ∃ v : ℝ, hi = (v : EReal) ∧ 0 < v ∧ v < 1 :=
  ⟨16777214 / 16777216, hi_eq, by norm_num, by norm_num⟩

theorem hi_pos : (0 : EReal) < hi := by
  rw [hi_eq, EReal.coe_pos]; norm_num

theorem lo_le_hi : lo ≤ hi := by
  rw [lo_eq, hi_eq, EReal.coe_le_coe_iff]; norm_num

theorem scale_pos : (0 : EReal) < scale := by
  rw [scale_eq, EReal.coe_pos]; norm_num

theorem scale_ne_top : scale ≠ ⊤ := by
  rw [scale_eq]; exact EReal.coe_ne_top _

theorem rowsC_ne_zero : rowsC ≠ 0 := by
  rw [rowsC_eq]; exact_mod_cast (by norm_num : (512 : ℝ) ≠ 0)

/-! ## The guarded norm -/

/-- The guarded norm is at least the positive floor. -/
theorem rowNorm_pos {n d : ℕ} (x : Fin n → Fin d → EReal) (r : Fin n) : 0 < rowNorm x r :=
  lt_max_of_lt_right epsN_pos

/-- Multiplying by the reciprocal of the guarded norm is dividing by it. The norm N is positive, so both
    quotients are products with N⁻¹ (which is 0 when N = ⊤), and 1 · N⁻¹ = N⁻¹. -/
theorem unit_eq_mul_recip {n d : ℕ} (x : Fin n → Fin d → EReal) (r : Fin n) (k : Fin d) :
    x r k * Ideal.div one (max (Ideal.sqrt (∑ k' : Fin d, x r k' * x r k')) epsN) = unit x r k := by
  have hN : rowNorm x r ≠ 0 := (rowNorm_pos x r).ne'
  have hE : max (Ideal.sqrt (∑ k' : Fin d, x r k' * x r k')) epsN = rowNorm x r := by
    rw [rowNorm, zero_add]
  rw [hE, unit, Ideal.div, if_neg hN, Ideal.div, if_neg hN, one_eq, one_mul]

/-! ## Clipped values are real -/

theorem lo_le_clip (v : EReal) : lo ≤ clip v := le_min lo_le_hi (le_max_left _ _)

theorem clip_le_hi (v : EReal) : clip v ≤ hi := min_le_left _ _

/-- A clipped value lies between two reals, so it is a real between them. -/
theorem clip_real (v : EReal) :
    ∃ u : ℝ, clip v = (u : EReal) ∧ -(16777214 / 16777216) ≤ u ∧ u ≤ 16777214 / 16777216 := by
  have h1 := lo_le_clip v
  have h2 := clip_le_hi v
  rw [lo_eq] at h1; rw [hi_eq] at h2
  have hT : clip v ≠ ⊤ := ne_top_of_le_ne_top (EReal.coe_ne_top _) h2
  have hB : clip v ≠ ⊥ := ne_bot_of_le_ne_bot (EReal.coe_ne_bot _) h1
  obtain ⟨u, hu⟩ : ∃ u : ℝ, (u : EReal) = clip v := ⟨(clip v).toReal, EReal.coe_toReal hT hB⟩
  rw [← hu] at h1 h2
  exact ⟨u, hu.symm, EReal.coe_le_coe_iff.1 h1, EReal.coe_le_coe_iff.1 h2⟩

/-- The cosine is a real of absolute value at most 1 − 2⁻²³. -/
theorem cosine_real (x : Fin 512 → Fin 512 → EReal) (w : Fin 100000 → Fin 512 → EReal) (r : Fin 512)
    (c : Fin 100000) :
    ∃ u : ℝ, cosine x w r c = (u : EReal) ∧ -(16777214 / 16777216) ≤ u ∧ u ≤ 16777214 / 16777216 :=
  clip_real _

/-- The margin of a real v with |v| ≤ 1 − 2⁻²³ is real: 1 − v² > 0, so its clipped value is a positive real
    with a real square root, and both branches are differences of products of reals. -/
theorem margin_real (v : ℝ) (h1 : -(16777214 / 16777216) ≤ v) (h2 : v ≤ 16777214 / 16777216) :
    ∃ m : ℝ, margin (v : EReal) = (m : EReal) := by
  simp only [margin, Scalar.select]
  split_ifs
  · have hW : (0 : ℝ) < 1 - v * v := by
      nlinarith [mul_nonneg (sub_nonneg.2 h2) (by linarith : (0 : ℝ) ≤ v + 16777214 / 16777216)]
    have hWE : one - (v : EReal) * (v : EReal) = ((1 - v * v : ℝ) : EReal) := by
      rw [one_eq, ← EReal.coe_mul, ← EReal.coe_one, ← EReal.coe_sub]
    obtain ⟨u, hu, -, -⟩ := clip_real (one - (v : EReal) * (v : EReal))
    have hupos : (0 : EReal) < clip (one - (v : EReal) * (v : EReal)) := by
      rw [hWE]; exact lt_min hi_pos (lt_max_of_lt_right (EReal.coe_pos.2 hW))
    rw [hu] at hupos
    have hu0 : ¬ u < 0 := not_lt.2 (EReal.coe_pos.1 hupos).le
    refine ⟨v * (14723392 / 16777216) - Real.sqrt u * (16086852 / 33554432), ?_⟩
    rw [hu, Ideal.sqrt_coe, if_neg hu0, cosM_eq, sinM_eq, ← EReal.coe_mul, ← EReal.coe_mul, ← EReal.coe_sub]
  · exact ⟨v - 16086852 / 67108864, by rw [mmC_eq, ← EReal.coe_sub]⟩

/-- Every logit is 64 times a real: the cosine, or at the target its margin. -/
theorem logit_real (x : Fin 512 → Fin 512 → EReal) (tgt : Fin 512 → BitVec 32) (w : Fin 100000 → Fin 512 → EReal)
    (r : Fin 512) (c : Fin 100000) : ∃ v : ℝ, logit x tgt w r c = (v : EReal) := by
  obtain ⟨u, hu, h1, h2⟩ := clip_real (∑ k : Fin 512, unit x r k * unit w c k)
  have hc : cosine x w r c = (u : EReal) := hu
  simp only [logit, Scalar.select]
  rw [hc, scale_eq]
  split_ifs
  · obtain ⟨m, hm⟩ := margin_real u h1 h2
    exact ⟨m * 64, by rw [hm, ← EReal.coe_mul]⟩
  · exact ⟨u * 64, by rw [← EReal.coe_mul]⟩

end Cert.ArcSpec

end
-- ==== Proof.KerInduct.lean ====
/-
  The three carried vectors point by point. After tile k of half h they hold, row by row, the running maximum,
  the running rescaled sum of exponentials and the running target logit of the logits over the classes of the
  half's tiles 0 … k; at a half's last tile the three outputs' blocks are copies of them.
-/
import proofs.«424565_j56710748176751_3_alg».proof.Proof.KerPieces
import proofs.«424565_j56710748176751_3_alg».proof.Proof.KerBlocks
import proofs.«424565_j56710748176751_3_alg».proof.Proof.KerTileLogits
import proofs.«424565_j56710748176751_3_alg».proof.Proof.KerTileState
import proofs.«424565_j56710748176751_3_alg».proof.Proof.KerHostPre
import proofs.«424565_j56710748176751_3_alg».proof.Proof.ArcReal

set_option maxRecDepth 16384

noncomputable section

namespace Cert.KernelIdeal.KerInduct

open Idealize.ShloMosaic Idealize.ShloMosaic.TcCoe Idealize.SL.Sem
open Cert.KernelIdeal Cert.KernelIdeal.Gen Cert.ArcSpec ValueIdx
open Cert.KernelIdeal.KerPieces Cert.KernelIdeal.KerBlocks Cert.KernelIdeal.KerTile Cert.KernelIdeal.KerHost

variable (m : (ℓ : Loc nD τ sig) → Buf (Elt Ideal) ℓ)

/-- The launched input, targets and class weights as plain functions. -/
def Xm (c : Dev nD) : Fin 512 → Fin 512 → EReal := fun r d => (m ((c : Thread nD τ).loc main_arg0) : S512x512.Idx → EReal) (ix2 r d)
def Tm (c : Dev nD) : Fin 512 → BitVec 32 := fun r => (m ((c : Thread nD τ).loc main_arg1) : S512.Idx → BitVec 32) (ix1 r)
def Wm (c : Dev nD) : Fin 100000 → Fin 512 → EReal := fun k d => (m ((c : Thread nD τ).loc main_arg2) : S100000x512.Idx → EReal) (ix2 k d)
/-- Their logits. -/
abbrev Lm (c : Dev nD) : Fin 512 → Fin 100000 → EReal := logit (Xm m c) (Tm m c) (Wm m c)

/-- The half a grid point lies in. -/
def half (n : ℕ) : Fin 2 := if n < 50 then 0 else 1

theorem N100 : cfg0.N = 100 := N_0

theorem coords_half : ∀ t : Fin cfg0.N, ((grid0.coords t) 0).val = (half t.val).val ∧ ((grid0.coords t) 1).val = t.val % 50 :=
  (by decide +kernel : ∀ t : Fin grid0.N, ((grid0.coords t) 0).val = (half t.val).val ∧ ((grid0.coords t) 1).val = t.val % 50)

/-- Tile `n mod 50` of the half of point `n` starts at class `1000 · n`. -/
theorem col_half (n : ℕ) (hn : n < 100) (j : Fin 1000) : (col (half n) (n % 50) j).val = n * 1000 + j.val := by
  rw [col_val _ _ (Nat.mod_lt _ (by decide))]
  unfold half
  have := j.isLt
  split
  · show (0 * 50 + n % 50) * 1000 + j.val = _; omega
  · show (1 * 50 + n % 50) * 1000 + j.val = _; omega

/-! ## The blocks of point `t` -/

theorem blk_x (c : Dev nD) (t : Fin cfg0.N) (r d : Fin 512) : xblk m c t (ix2 r d) = unit (Xm m c) r d :=
  (xblk_apply m c t r d).trans (V_xhat m c r d)

theorem blk_w (c : Dev nD) (t : Fin cfg0.N) (j : Fin 1000) (d : Fin 512) :
    wblk m c t (ix2 j d) = Wm m c (col (half t.val) (t.val % 50) j) d := by
  rw [wblk_apply m c t j d (col (half t.val) (t.val % 50) j) (col_half t.val (lt_of_lt_of_eq t.isLt N100) j)]
  exact congrFun (V_main_arg2 m c) _

theorem blk_t (c : Dev nD) (t : Fin cfg0.N) (r : Fin 512) : tblk m c t (ix2 r (0 : Fin 1)) = Tm m c r :=
  (tblk_apply m c t r).trans (V_target m c r)

/-- The logits of the tile of point `t`. -/
abbrev Lt (c : Dev nD) (t : Fin cfg0.N) : Fin 512 → Fin 1000 → EReal := fun r j => Lm m c r (col (half t.val) (t.val % 50) j)

theorem tile_L (c : Dev nD) (t : Fin cfg0.N) (r : Fin 512) (j : Fin 1000) :
    tileLogits (grid0.coords t) (xblk m c t) (wblk m c t) (tblk m c t) (ix2 r j) = Lt m c t r j :=
  tile_logits (grid0.coords t) (half t.val) (t.val % 50) (Nat.mod_lt _ (by decide)) (coords_half t).1 (coords_half t).2
    (Xm m c) (Tm m c) (Wm m c) (xblk m c t) (wblk m c t) (tblk m c t) (blk_x m c t) (blk_w m c t) (blk_t m c t)
    (fun j d => unit_eq_mul_recip (fun j d => wblk m c t (ix2 j d)) j d) r j

theorem tile_H (c : Dev nD) (t : Fin cfg0.N) (r : Fin 512) (j : Fin 1000) :
    k0_pay10 (F := Ideal) (grid0.coords t) (tblk m c t) (ix2 r j) = hot (Tm m c) r (col (half t.val) (t.val % 50) j) :=
  tile_hot (grid0.coords t) (half t.val) (t.val % 50) (Nat.mod_lt _ (by decide)) (coords_half t).1 (coords_half t).2
    (Tm m c) (tblk m c t) (blk_t m c t) r j

/-! ## One tile's update of a row's state -/

theorem step_max (c : Dev nD) (t : Fin cfg0.N) (s0 : Vec Ideal S512x1 .f32) (r : Fin 512) :
    k0_pay2 (F := Ideal) (newMax (grid0.coords t) (xblk m c t) (wblk m c t) (tblk m c t) s0) (ix2 r (0 : Fin 1))
      = max (s0 (ix2 r 0)) ((Finset.univ : Finset (Fin 1000)).fold max ⊥ (fun j => Lt m c t r j)) :=
  (pay2_apply _ r).trans (pay15_apply _ _ _ _ _ (Lt m c t) (tile_L m c t) s0 r)

theorem step_sum (c : Dev nD) (t : Fin cfg0.N) (s0 s1 : Vec Ideal S512x1 .f32) (r : Fin 512) :
    newSum (grid0.coords t) (xblk m c t) (wblk m c t) (tblk m c t) s0 s1 (ix2 r (0 : Fin 1))
      = Ideal.exp (s0 (ix2 r 0) - max (s0 (ix2 r 0)) ((Finset.univ : Finset (Fin 1000)).fold max ⊥ (fun j => Lt m c t r j))) * s1 (ix2 r 0)
        + ∑ j : Fin 1000, Ideal.exp (Lt m c t r j - max (s0 (ix2 r 0)) ((Finset.univ : Finset (Fin 1000)).fold max ⊥ (fun j => Lt m c t r j))) := by
  refine (pay16_apply _ _ _ _ _ (Lt m c t) (tile_L m c t) s0 s0 s1 r).trans ?_
  rw [pay15_apply _ _ _ _ _ (Lt m c t) (tile_L m c t) s0 r]

theorem step_tgt (c : Dev nD) (t : Fin cfg0.N) (s2 : Vec Ideal S512x1 .f32) (r : Fin 512) :
    newTgt (grid0.coords t) (xblk m c t) (wblk m c t) (tblk m c t) s2 (ix2 r (0 : Fin 1))
      = s2 (ix2 r 0) + ∑ j : Fin 1000, Scalar.select (hot (Tm m c) r (col (half t.val) (t.val % 50) j)) (Lt m c t r j) 0 :=
  pay1_apply (k0_pay10 (F := Ideal) (grid0.coords t) (tblk m c t)) (Lt m c t) (fun r j => hot (Tm m c) r (col (half t.val) (t.val % 50) j))
    (tile_H m c t) (tileLogits (grid0.coords t) (xblk m c t) (wblk m c t) (tblk m c t)) (tile_L m c t) s2 r

/-! ## The carried vectors after each point -/

/-- The running maximum, sum and target logit after point `n`. -/
abbrev st0 (c : Dev nD) (n : ℕ) (hn : n < cfg0.N) : Vec Ideal S512x1 .f32 := (outsAt0 m c n hn).2.2.2.1
abbrev st1 (c : Dev nD) (n : ℕ) (hn : n < cfg0.N) : Vec Ideal S512x1 .f32 := (outsAt0 m c n hn).2.2.2.2.1
abbrev st2 (c : Dev nD) (n : ℕ) (hn : n < cfg0.N) : Vec Ideal S512x1 .f32 := (outsAt0 m c n hn).2.2.2.2.2

/-- At a half's first tile the vectors are the update of the reset state. -/
theorem st_first (c : Dev nD) (t : Fin cfg0.N) (h0 : t.val % 50 = 0) :
    st0 m c t.val t.isLt = k0_pay2 (newMax (grid0.coords t) (xblk m c t) (wblk m c t) (tblk m c t) (k0_pay6 (F := Ideal)))
    ∧ st1 m c t.val t.isLt = newSum (grid0.coords t) (xblk m c t) (wblk m c t) (tblk m c t) (k0_pay6 (F := Ideal)) (k0_pay7 (F := Ideal))
    ∧ st2 m c t.val t.isLt = newTgt (grid0.coords t) (xblk m c t) (wblk m c t) (tblk m c t) (k0_pay8 (F := Ideal)) := by
  have h1 : ¬t.val % 50 = 49 := by omega
  refine ⟨?_, ?_, ?_⟩
  · show (outsAt0 m c t.val t.isLt).2.2.2.1 = _
    rw [outsAt0_A m c t h0 h1]; dsimp only
    exact sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
  · show (outsAt0 m c t.val t.isLt).2.2.2.2.1 = _
    rw [outsAt0_A m c t h0 h1]; dsimp only
    exact sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
  · show (outsAt0 m c t.val t.isLt).2.2.2.2.2 = _
    rw [outsAt0_A m c t h0 h1]; dsimp only
    exact sA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

/-- At any other tile they are the update of what the tile before left. -/
theorem st_next (c : Dev nD) (t : Fin cfg0.N) (h0 : ¬t.val % 50 = 0) :
    st0 m c t.val t.isLt = k0_pay2 (newMax (grid0.coords t) (xblk m c t) (wblk m c t) (tblk m c t) (outsAt0 m c (t.val - 1) (Nat.lt_of_le_of_lt (Nat.sub_le _ _) t.isLt)).2.2.2.1)
    ∧ st1 m c t.val t.isLt = newSum (grid0.coords t) (xblk m c t) (wblk m c t) (tblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ st2 m c t.val t.isLt = newTgt (grid0.coords t) (xblk m c t) (wblk m c t) (tblk m c t) (outsAt0 m c (t.val - 1) (Nat.lt_of_le_of_lt (Nat.sub_le _ _) t.isLt)).2.2.2.2.2 := by
  by_cases h1 : t.val % 50 = 49
  · refine ⟨?_, ?_, ?_⟩
    · show (outsAt0 m c t.val t.isLt).2.2.2.1 = _
      rw [outsAt0_C m c t h0 h1]; dsimp only
      exact sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · show (outsAt0 m c t.val t.isLt).2.2.2.2.1 = _
      rw [outsAt0_C m c t h0 h1]; dsimp only
      exact sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · show (outsAt0 m c t.val t.isLt).2.2.2.2.2 = _
      rw [outsAt0_C m c t h0 h1]; dsimp only
      exact sC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · refine ⟨?_, ?_, ?_⟩
    · show (outsAt0 m c t.val t.isLt).2.2.2.1 = _
      rw [outsAt0_B m c t h0 h1]; dsimp only
      exact sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · show (outsAt0 m c t.val t.isLt).2.2.2.2.1 = _
      rw [outsAt0_B m c t h0 h1]; dsimp only
      exact sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    · show (outsAt0 m c t.val t.isLt).2.2.2.2.2 = _
      rw [outsAt0_B m c t h0 h1]; dsimp only
      exact sB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- At a half's last tile the three outputs' blocks are the vectors just updated. -/
theorem out_last (c : Dev nD) (t : Fin cfg0.N) (h1 : t.val % 50 = 49) :
    (outsAt0 m c t.val t.isLt).1 = k0_pay3 (st0 m c t.val t.isLt)
    ∧ (outsAt0 m c t.val t.isLt).2.1 = k0_pay4 (st1 m c t.val t.isLt)
    ∧ (outsAt0 m c t.val t.isLt).2.2.1 = k0_pay5 (st2 m c t.val t.isLt) := by
  have h0 : ¬t.val % 50 = 0 := by omega
  obtain ⟨e0, e1, e2⟩ := st_next m c t h0
  refine ⟨?_, ?_, ?_⟩
  · rw [e0, outsAt0_C m c t h0 h1]; dsimp only
    exact oC3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [e1, outsAt0_C m c t h0 h1]; dsimp only
    exact oC4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rw [e2, outsAt0_C m c t h0 h1]; dsimp only
    exact oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- THE INVARIANT: after point `n` — tile `n mod 50` of its half — each row of the three vectors is the running
    maximum, sum and target logit over the half's tiles up to that one. -/
theorem state_eq (c : Dev nD) : ∀ (n : ℕ) (hn : n < cfg0.N) (r : Fin 512),
    st0 m c n hn (ix2 r (0 : Fin 1)) = runMax (Lm m c) (half n) (n % 50 + 1) r
    ∧ st1 m c n hn (ix2 r (0 : Fin 1)) = runSum (Lm m c) (half n) (n % 50 + 1) r
    ∧ st2 m c n hn (ix2 r (0 : Fin 1)) = runTgt (Lm m c) (Tm m c) (half n) (n % 50 + 1) r := by
  intro n
  induction n with
  | zero =>
    intro hn r
    obtain ⟨e0, e1, e2⟩ := st_first m c ⟨0, hn⟩ rfl
    refine ⟨?_, ?_, ?_⟩
    · show st0 m c (⟨0, hn⟩ : Fin cfg0.N).val _ (ix2 r 0) = _
      rw [e0, step_max, pay6_apply]; rfl
    · show st1 m c (⟨0, hn⟩ : Fin cfg0.N).val _ (ix2 r 0) = _
      rw [e1, step_sum, pay6_apply, pay7_apply]; rfl
    · show st2 m c (⟨0, hn⟩ : Fin cfg0.N).val _ (ix2 r 0) = _
      rw [e2, step_tgt, pay8_apply]; rfl
  | succ n ih =>
    intro hn r
    have hn100 : n + 1 < 100 := lt_of_lt_of_eq hn N100
    by_cases h0 : (n + 1) % 50 = 0
    · obtain ⟨e0, e1, e2⟩ := st_first m c ⟨n + 1, hn⟩ h0
      refine ⟨?_, ?_, ?_⟩
      · show st0 m c (⟨n + 1, hn⟩ : Fin cfg0.N).val _ (ix2 r 0) = _
        rw [e0, step_max, pay6_apply]; simp only [Lt]; rw [h0]; rfl
      · show st1 m c (⟨n + 1, hn⟩ : Fin cfg0.N).val _ (ix2 r 0) = _
        rw [e1, step_sum, pay6_apply, pay7_apply]; simp only [Lt]; rw [h0]; rfl
      · show st2 m c (⟨n + 1, hn⟩ : Fin cfg0.N).val _ (ix2 r 0) = _
        rw [e2, step_tgt, pay8_apply]; simp only [Lt]; rw [h0]; rfl
    · obtain ⟨e0, e1, e2⟩ :
          st0 m c (n + 1) hn = k0_pay2 (newMax (grid0.coords (⟨n + 1, hn⟩ : Fin cfg0.N)) (xblk m c (⟨n + 1, hn⟩ : Fin cfg0.N)) (wblk m c (⟨n + 1, hn⟩ : Fin cfg0.N)) (tblk m c (⟨n + 1, hn⟩ : Fin cfg0.N)) (st0 m c n (Nat.lt_of_succ_lt hn)))
          ∧ st1 m c (n + 1) hn = newSum (grid0.coords (⟨n + 1, hn⟩ : Fin cfg0.N)) (xblk m c (⟨n + 1, hn⟩ : Fin cfg0.N)) (wblk m c (⟨n + 1, hn⟩ : Fin cfg0.N)) (tblk m c (⟨n + 1, hn⟩ : Fin cfg0.N)) (st0 m c n (Nat.lt_of_succ_lt hn)) (st1 m c n (Nat.lt_of_succ_lt hn))
          ∧ st2 m c (n + 1) hn = newTgt (grid0.coords (⟨n + 1, hn⟩ : Fin cfg0.N)) (xblk m c (⟨n + 1, hn⟩ : Fin cfg0.N)) (wblk m c (⟨n + 1, hn⟩ : Fin cfg0.N)) (tblk m c (⟨n + 1, hn⟩ : Fin cfg0.N)) (st2 m c n (Nat.lt_of_succ_lt hn)) :=
        st_next m c ⟨n + 1, hn⟩ h0
      obtain ⟨i0, i1, i2⟩ := ih (Nat.lt_of_succ_lt hn) r
      have hh : half (n + 1) = half n := by unfold half; split <;> split <;> first | rfl | omega
      have hk : (n + 1) % 50 = n % 50 + 1 := by omega
      refine ⟨?_, ?_, ?_⟩
      · rw [e0, step_max, i0]; simp only [Lt]; rw [hh, hk]; rfl
      · rw [e1, step_sum, i0, i1]; simp only [Lt]; rw [hh, hk]; rfl
      · rw [e2, step_tgt, i2]; simp only [Lt]; rw [hh, hk]; rfl

end Cert.KernelIdeal.KerInduct

end
-- ==== Proof.KerArrays.lean ====
/-
  The three output arrays after the run. Each is 2 × 512 × 1: half h's block is written back once, at the half's last
  tile, and holds that half's final running maximum, sum of exponentials and target logit, row by row.
-/
import proofs.«424565_j56710748176751_3_alg».proof.Proof.KerInduct

set_option maxRecDepth 16384

noncomputable section

namespace Cert.KernelIdeal.KerArrays

open Idealize.ShloMosaic Idealize.ShloMosaic.TcCoe Idealize.SL.Sem
open Idealize.ShloMosaic.Pipeline (Dat)
open Cert.KernelIdeal Cert.KernelIdeal.Gen Cert.ArcSpec ValueIdx
open Cert.KernelIdeal.KerTile Cert.KernelIdeal.KerInduct

variable (m : (ℓ : Loc nD τ sig) → Buf (Elt Ideal) ℓ)

/-- What the three arrays end holding. -/
def finMax (c : Dev nD) : S2x512x1.Idx → EReal := fun y => runMax (Lm m c) (y 0) 50 (y 1)
def finSum (c : Dev nD) : S2x512x1.Idx → EReal := fun y => runSum (Lm m c) (y 0) 50 (y 1)
def finTgt (c : Dev nD) : S2x512x1.Idx → EReal := fun y => runTgt (Lm m c) (Tm m c) (y 0) 50 (y 1)

theorem index3 : ∀ t : Fin cfg0.N, win0_3.index t (0 : Fin 3) = (half t.val).val ∧ win0_3.index t (1 : Fin 3) = 0 ∧ win0_3.index t (2 : Fin 3) = 0 :=
  (by decide +kernel : ∀ t : Fin grid0.N, win0_3.index t (0 : Fin 3) = (half t.val).val ∧ win0_3.index t (1 : Fin 3) = 0 ∧ win0_3.index t (2 : Fin 3) = 0)
theorem index4 : ∀ t : Fin cfg0.N, win0_4.index t (0 : Fin 3) = (half t.val).val ∧ win0_4.index t (1 : Fin 3) = 0 ∧ win0_4.index t (2 : Fin 3) = 0 :=
  (by decide +kernel : ∀ t : Fin grid0.N, win0_4.index t (0 : Fin 3) = (half t.val).val ∧ win0_4.index t (1 : Fin 3) = 0 ∧ win0_4.index t (2 : Fin 3) = 0)
theorem index5 : ∀ t : Fin cfg0.N, win0_5.index t (0 : Fin 3) = (half t.val).val ∧ win0_5.index t (1 : Fin 3) = 0 ∧ win0_5.index t (2 : Fin 3) = 0 :=
  (by decide +kernel : ∀ t : Fin grid0.N, win0_5.index t (0 : Fin 3) = (half t.val).val ∧ win0_5.index t (1 : Fin 3) = 0 ∧ win0_5.index t (2 : Fin 3) = 0)

/-- The last tile of half `h`. -/
def lastTile (h : ℕ) (hh : h < 2) : Fin cfg0.N := ⟨h * 50 + 49, by rw [N100]; omega⟩

theorem lastTile_mod (h : ℕ) (hh : h < 2) : (lastTile h hh).val % 50 = 49 := by
  show (h * 50 + 49) % 50 = 49; omega

theorem half_lastTile (h : ℕ) (hh : h < 2) : (half (lastTile h hh).val).val = h := by
  show (half (h * 50 + 49)).val = h
  unfold half
  split
  · show 0 = h; omega
  · show 1 = h; omega

/-- What a half's last tile writes back through window 3 is that half's block of `finMax`. -/
theorem flushed3 (c : Dev nD) (t : Fin cfg0.N) (hf : (cfg0.win 3).flush t = true) :
    (dats m 0 c).flushed 3 t = ((cfg0.win 3).blk t).view.read (Elt Ideal) (finMax m c) := by
  have h49 : t.val % 50 = 49 := (flush0_3 t).mp hf
  show (cfg0.win 3).cut (grid0.coords t) ((dats m 0 c).after 3 t) = _
  rw [after0_3, (out_last m c t h49).1]
  funext y
  show k0_pay3 (st0 m c t.val t.isLt) ((cfg0.win 3).xinj (grid0.coords t) y) = _
  rw [View.read_apply]
  have hy0 : (y 0).val < 1 := (y 0).isLt
  have hy1 : (y 1).val < 512 := (y 1).isLt
  have hy2 : (y 2).val < 1 := (y 2).isLt
  have e1 : (cfg0.win 3).xinj (grid0.coords t) y = ix3 (0 : Fin 1) (⟨(y 1).val, hy1⟩ : Fin 512) (0 : Fin 1) := by
    funext a; apply Fin.ext
    match a with
    | ⟨0, _⟩ => show (y 0).val = 0; omega
    | ⟨1, _⟩ => rfl
    | ⟨2, _⟩ => show (y 2).val = 0; omega
  have e2 : ((cfg0.win 3).blk t).view.emb y = ix3 (half t.val) (⟨(y 1).val, hy1⟩ : Fin 512) (0 : Fin 1) := by
    funext a; apply Fin.ext
    match a with
    | ⟨0, _⟩ => show win0_3.index t 0 * 1 + 1 * (y 0).val = (half t.val).val; rw [(index3 t).1]; omega
    | ⟨1, _⟩ => show win0_3.index t 1 * 512 + 1 * (y 1).val = (y 1).val; rw [(index3 t).2.1]; omega
    | ⟨2, _⟩ => show win0_3.index t 2 * 1 + 1 * (y 2).val = 0; rw [(index3 t).2.2]; omega
  rw [e1, pay3_apply, (state_eq m c t.val t.isLt ⟨(y 1).val, hy1⟩).1, e2, h49]
  rfl

/-- Every index of the array lies in the block one of the two write-backs covers. -/
theorem cover3 (i : S2x512x1.Idx) : ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 1 := (i 2).isLt
  refine ⟨lastTile (i 0).val hi0, (flush0_3 _).mpr (lastTile_mod _ hi0), ?_⟩
  show i ∈ ((View.whole main_v7_0).slice (win0_3.rect (lastTile (i 0).val hi0))).set
  rw [View.set_slice_whole, Rect.mem_set_unit]
  intro a
  match a with
  | ⟨0, _⟩ =>
    show win0_3.index (lastTile (i 0).val hi0) 0 * 1 ≤ (i 0).val ∧ (i 0).val < win0_3.index (lastTile (i 0).val hi0) 0 * 1 + 1
    rw [(index3 _).1, half_lastTile]; omega
  | ⟨1, _⟩ =>
    show win0_3.index (lastTile (i 0).val hi0) 1 * 512 ≤ (i 1).val ∧ (i 1).val < win0_3.index (lastTile (i 0).val hi0) 1 * 512 + 512
    rw [(index3 _).2.1]; omega
  | ⟨2, _⟩ =>
    show win0_3.index (lastTile (i 0).val hi0) 2 * 1 ≤ (i 2).val ∧ (i 2).val < win0_3.index (lastTile (i 0).val hi0) 2 * 1 + 1
    rw [(index3 _).2.2]; omega

/-- So the array ends at `finMax`. -/
theorem final3 (c : Dev nD) : (dats m 0 c).arrAt 3 cfg0.N = finMax m c :=
  (dats m 0 c).arrAt_eq_of_cover 3 (finMax m c) (flushed3 m c) cover3

/-- What a half's last tile writes back through window 4 is that half's block of `finSum`. -/
theorem flushed4 (c : Dev nD) (t : Fin cfg0.N) (hf : (cfg0.win 4).flush t = true) :
    (dats m 0 c).flushed 4 t = ((cfg0.win 4).blk t).view.read (Elt Ideal) (finSum m c) := by
  have h49 : t.val % 50 = 49 := (flush0_4 t).mp hf
  show (cfg0.win 4).cut (grid0.coords t) ((dats m 0 c).after 4 t) = _
  rw [after0_4, (out_last m c t h49).2.1]
  funext y
  show k0_pay4 (st1 m c t.val t.isLt) ((cfg0.win 4).xinj (grid0.coords t) y) = _
  rw [View.read_apply]
  have hy0 : (y 0).val < 1 := (y 0).isLt
  have hy1 : (y 1).val < 512 := (y 1).isLt
  have hy2 : (y 2).val < 1 := (y 2).isLt
  have e1 : (cfg0.win 4).xinj (grid0.coords t) y = ix3 (0 : Fin 1) (⟨(y 1).val, hy1⟩ : Fin 512) (0 : Fin 1) := by
    funext a; apply Fin.ext
    match a with
    | ⟨0, _⟩ => show (y 0).val = 0; omega
    | ⟨1, _⟩ => rfl
    | ⟨2, _⟩ => show (y 2).val = 0; omega
  have e2 : ((cfg0.win 4).blk t).view.emb y = ix3 (half t.val) (⟨(y 1).val, hy1⟩ : Fin 512) (0 : Fin 1) := by
    funext a; apply Fin.ext
    match a with
    | ⟨0, _⟩ => show win0_4.index t 0 * 1 + 1 * (y 0).val = (half t.val).val; rw [(index4 t).1]; omega
    | ⟨1, _⟩ => show win0_4.index t 1 * 512 + 1 * (y 1).val = (y 1).val; rw [(index4 t).2.1]; omega
    | ⟨2, _⟩ => show win0_4.index t 2 * 1 + 1 * (y 2).val = 0; rw [(index4 t).2.2]; omega
  rw [e1, pay4_apply, (state_eq m c t.val t.isLt ⟨(y 1).val, hy1⟩).2.1, e2, h49]
  rfl

/-- Every index of the array lies in the block one of the two write-backs covers. -/
theorem cover4 (i : S2x512x1.Idx) : ∃ t : Fin cfg0.N, (cfg0.win 4).flush t = true ∧ i ∈ ((cfg0.win 4).blk t).view.set := by
  have hi0 : (i 0).val < 2 := (i 0).isLt
  have hi1 : (i 1).val < 512 := (i 1).isLt
  have hi2 : (i 2).val < 1 := (i 2).isLt
  refine ⟨lastTile (i 0).val hi0, (flush0_4 _).mpr (lastTile_mod _ hi0), ?_⟩
  show i ∈ ((View.whole main_v7_1).slice (win0_4.rect (lastTile (i 0).val hi0))).set
  rw [View.set_slice_whole, Rect.mem_set_unit]
  intro a
  match a with
  | ⟨0, _⟩ =>
    show win0_4.index (lastTile (i 0).val hi0) 0 * 1 ≤ (i 0).val ∧ (i 0).val < win0_4.index (lastTile (i 0).val hi0) 0 * 1 + 1
    rw [(index4 _).1, half_lastTile]; omega
  | ⟨1, _⟩ =>
    show win0_4.index (lastTile (i 0).val hi0) 1 * 512 ≤ (i 1).val ∧ (i 1).val < win0_4.index (lastTile (i 0).val hi0) 1 * 512 + 512
    rw [(index4 _).2.1]; omega
  | ⟨2, _⟩ =>
    show win0_4.index (lastTile (i 0).val hi0) 2 * 1 ≤ (i 2).val ∧ (i 2).val < win0_4.index (lastTile (i 0).val hi0) 2 * 1 + 1
    rw [(index4 _).2.2]; omega

/-- So the array ends at `finSum`. -/
theorem final4 (c : Dev nD) : (dats m 0 c).arrAt 4 cfg0.N = finSum m c :=
  (dats m 0 c).arrAt_eq_of_cover 4 (finSum m c) (flushed4 m c) cover4

/-- What a half's last tile writes back through window 5 is that half's block of `finTgt`. -/
theorem flushed5 (c : Dev nD) (t : Fin cfg0.N) (hf : (cfg0.win 5).flush t = true) :
    (dats m 0 c).flushed 5 t = ((cfg0.win 5).blk t).view.read (Elt Ideal) (finTgt m c) := by
  have h49 : t.val % 50 = 49 := (flush0_5 t).mp hf
  show (cfg0.win 5).cut (grid0.coords t) ((dats m 0 c).after 5 t) = _
  rw [after0_5, (out_last m c t h49).2.2]
  funext y
  show k0_pay5 (st2 m c t.val t.isLt) ((cfg0.win 5).xinj (grid0.coords t) y) = _
  rw [View.read_apply]
  have hy0 : (y 0).val < 1 := (y 0).isLt
  have hy1 : (y 1).val < 512 := (y 1).isLt
  have hy2 : (y 2).val < 1 := (y 2).isLt
  have e1 : (cfg0.win 5).xinj (grid0.coords t) y = ix3 (0 : Fin 1) (⟨(y 1).val, hy1⟩ : Fin 512) (0 : Fin 1) := by
    funext a; apply Fin.ext
    match a with
    | ⟨0, _⟩ => show (y 0).val = 0; omega
    | ⟨1, _⟩ => rfl
    | ⟨2, _⟩ => show (y 2).val = 0; omega
  have e2 : ((cfg0.win 5).blk t).view.emb y = ix3 (half t.val) (⟨(y 1).val, hy1⟩ : Fin 512) (0 : Fin 1) := by
    funext a; apply Fin.ext
    match a with
    | ⟨0, _⟩ => show win0_5.index t 0 * 1 + 1 * (y 0).val = (half t.val).val; rw [(index5 t).1]; omega
    | ⟨1, _⟩ => show win0_5.index t 1 * 512 + 1 * (y 1).val = (y 1).val; rw [(index5 t).2.1]; omega
    | ⟨2, _⟩ => show win0_5.index t 2 * 1 + 1 * (y 2).val = 0; rw [(index5 t).2.2]; omega
  rw [e1, pay5_apply, (state_eq m c t.val t.isLt ⟨(y 1).val, hy1⟩).2.2, e2, h49]
  rfl

/-- Every index of the array lies in the block one of the two write-backs covers. -/
theorem cover5 (i : S2x512x1.Idx) : ∃ t : Fin cfg0.N, (cfg0.win 5).flush t = true ∧ i ∈ ((cfg0.win 5).blk t).view.set := by
  have hi0 : (i 0).val < 2 := (i 0).isLt
  have hi1 : (i 1).val < 512 := (i 1).isLt
  have hi2 : (i 2).val < 1 := (i 2).isLt
  refine ⟨lastTile (i 0).val hi0, (flush0_5 _).mpr (lastTile_mod _ hi0), ?_⟩
  show i ∈ ((View.whole main_v7_2).slice (win0_5.rect (lastTile (i 0).val hi0))).set
  rw [View.set_slice_whole, Rect.mem_set_unit]
  intro a
  match a with
  | ⟨0, _⟩ =>
    show win0_5.index (lastTile (i 0).val hi0) 0 * 1 ≤ (i 0).val ∧ (i 0).val < win0_5.index (lastTile (i 0).val hi0) 0 * 1 + 1
    rw [(index5 _).1, half_lastTile]; omega
  | ⟨1, _⟩ =>
    show win0_5.index (lastTile (i 0).val hi0) 1 * 512 ≤ (i 1).val ∧ (i 1).val < win0_5.index (lastTile (i 0).val hi0) 1 * 512 + 512
    rw [(index5 _).2.1]; omega
  | ⟨2, _⟩ =>
    show win0_5.index (lastTile (i 0).val hi0) 2 * 1 ≤ (i 2).val ∧ (i 2).val < win0_5.index (lastTile (i 0).val hi0) 2 * 1 + 1
    rw [(index5 _).2.2]; omega

/-- So the array ends at `finTgt`. -/
theorem final5 (c : Dev nD) : (dats m 0 c).arrAt 5 cfg0.N = finTgt m c :=
  (dats m 0 c).arrAt_eq_of_cover 5 (finTgt m c) (flushed5 m c) cover5

end Cert.KernelIdeal.KerArrays

end
-- ==== Proof.KerHostTail.lean ====
/-
  The host's operations after the kernel: from the two halves' online-softmax states — each row's running maximum,
  rescaled sum of exponentials and target logit, as three 2×512×1 arrays — the rows' negative log-likelihoods
  −((t₀ + t₁) − (m + log (e^{m₀ − m} · s₀ + e^{m₁ − m} · s₁))) with m = max m₀ m₁, summed from zero over the 512 rows
  and divided by 512. The operations' composed term is named (`tailFn`), read at a row (`tailRows_apply`), its total
  sum re-indexed over the rows (`tailFn_apply`), and met with the specification's arrangement by halves.
-/
import proofs.«424565_j56710748176751_3_alg».proof.Proof.Gen.KernelIdeal.Launch
import proofs.«424565_j56710748176751_3_alg».proof.Proof.ArcSpec
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.KerHost

open Cert.KernelIdeal Cert.KernelIdeal.Gen Idealize.ShloMosaic Idealize.ShloMosaic.TcCoe Idealize.SL.Sem
open Idealize.ShloMosaic.StableHlo Idealize.ShloMosaic.ValueIdx

/-- Half 0 of a 2×512×1 array, as a 512×1 array. -/
def half0 (A : FVec Ideal S2x512x1 .f32) : FVec Ideal S512x1 .f32 :=
  shapeCast S512x1 (extractStridedSlice S1x512x1 ![0, 0, 0] A slices_S2x512x1_S1x512x1_0_0_0) shapeCasts_S1x512x1_S512x1

/-- Half 1 of a 2×512×1 array, as a 512×1 array. -/
def half1 (A : FVec Ideal S2x512x1 .f32) : FVec Ideal S512x1 .f32 :=
  shapeCast S512x1 (extractStridedSlice S1x512x1 ![1, 0, 0] A slices_S2x512x1_S1x512x1_1_0_0) shapeCasts_S1x512x1_S512x1

theorem half0_apply (A : FVec Ideal S2x512x1 .f32) (r : Fin 512) :
    half0 A (ix2 r (0 : Fin 1)) = A (ix3 (0 : Fin 2) r (0 : Fin 1)) := by
  unfold half0
  refine (shapeCast_dropUnit_apply ![512, 1] _ _ (ix2 r (0 : Fin 1))).trans ?_
  refine extractStridedSlice_apply _ A _ _ (ix3 (0 : Fin 2) r (0 : Fin 1)) (fun a => ?_)
  match a with
  | ⟨0, _⟩ => rfl
  | ⟨1, _⟩ => exact (Nat.zero_add _).symm
  | ⟨2, _⟩ => rfl

theorem half1_apply (A : FVec Ideal S2x512x1 .f32) (r : Fin 512) :
    half1 A (ix2 r (0 : Fin 1)) = A (ix3 (1 : Fin 2) r (0 : Fin 1)) := by
  unfold half1
  refine (shapeCast_dropUnit_apply ![512, 1] _ _ (ix2 r (0 : Fin 1))).trans ?_
  refine extractStridedSlice_apply _ A _ _ (ix3 (1 : Fin 2) r (0 : Fin 1)) (fun a => ?_)
  match a with
  | ⟨0, _⟩ => rfl
  | ⟨1, _⟩ => exact (Nat.zero_add _).symm
  | ⟨2, _⟩ => rfl

/-- The rows' values the host computes from the three two-half state arrays. -/
def tailRows (M S T : FVec Ideal S2x512x1 .f32) : FVec Ideal S512x1 .f32 :=
  Host.negf (subf (addf (half0 T) (half1 T))
    (addf (maximumf (half0 M) (half1 M))
      (Host.log (addf
        (mulf (Host.exp (subf (half0 M) (maximumf (half0 M) (half1 M)))) (half0 S))
        (mulf (Host.exp (subf (half1 M) (maximumf (half0 M) (half1 M)))) (half1 S))))))

/-- The host's result: the rows' values summed from zero and divided by 512. -/
def tailFn (M S T : FVec Ideal S2x512x1 .f32) : FVec Ideal S_ .f32 :=
  Host.divf (Host.reduceAdd (tailRows M S T) (constant (F := Ideal) S_ .f32 0x00000000#32) reducesTo_S512x1_S_d0_1 h_S_)
    (constant (F := Ideal) S_ .f32 0x44000000#32)

theorem tail_term (Vw : Valuation τ sig (Elt Ideal)) :
    (StableHlo.after (hostOps1 (F := Ideal)) Vw (Proc.devRef .tc main_v34) : S_.Idx → EReal)
      = tailFn (Vw (Proc.devRef .tc main_v7_0)) (Vw (Proc.devRef .tc main_v7_1)) (Vw (Proc.devRef .tc main_v7_2)) := by
  show StableHlo.after (hostOps1 (F := Ideal)) Vw (Proc.devRef .tc main_v34) = _
  after_results_simp
  rfl

/-- A row of the host's values, in terms of the entries of the three state arrays. -/
theorem tailRows_apply (M S T : FVec Ideal S2x512x1 .f32) (r : Fin 512) :
    tailRows M S T (ix2 r (0 : Fin 1))
      = -((T (ix3 (0 : Fin 2) r (0 : Fin 1)) + T (ix3 (1 : Fin 2) r (0 : Fin 1)))
          - (max (M (ix3 (0 : Fin 2) r (0 : Fin 1))) (M (ix3 (1 : Fin 2) r (0 : Fin 1)))
            + Ideal.log
                (Ideal.exp (M (ix3 (0 : Fin 2) r (0 : Fin 1))
                    - max (M (ix3 (0 : Fin 2) r (0 : Fin 1))) (M (ix3 (1 : Fin 2) r (0 : Fin 1))))
                  * S (ix3 (0 : Fin 2) r (0 : Fin 1))
                + Ideal.exp (M (ix3 (1 : Fin 2) r (0 : Fin 1))
                    - max (M (ix3 (0 : Fin 2) r (0 : Fin 1))) (M (ix3 (1 : Fin 2) r (0 : Fin 1))))
                  * S (ix3 (1 : Fin 2) r (0 : Fin 1))))) := by
  rw [← half0_apply M r, ← half1_apply M r, ← half0_apply S r, ← half1_apply S r, ← half0_apply T r, ← half1_apply T r]
  rfl

/-- The host's result is the mean of the rows' values. -/
theorem tailFn_apply (M S T : FVec Ideal S2x512x1 .f32) (i : S_.Idx) :
    tailFn M S T i
      = Ideal.div (0 + ∑ r : Fin 512, tailRows M S T (ix2 r (0 : Fin 1))) Cert.ArcSpec.rowsC := by
  show Ideal.div (Ideal.hostReduceAdd reducesTo_S512x1_S_d0_1 (tailRows M S T) (Ideal.ofBits .f32 0x00000000#32) i)
      (Ideal.ofBits .f32 0x44000000#32) = _
  rw [Ideal.hostReduceAdd_total reducesTo_S512x1_S_d0_1 (fun b => b.elim0), Ideal.ofBits_zero_f32, sum_idx2]
  simp only [Fin.sum_univ_one]

theorem tail_value (Vw : Valuation τ sig (Elt Ideal)) (L : Fin 512 → Fin 100000 → EReal) (T : Fin 512 → BitVec 32)
    (h3 : ∀ (h : Fin 2) (r : Fin 512),
      (Vw (Proc.devRef .tc main_v7_0) : S2x512x1.Idx → EReal) (ix3 h r (0 : Fin 1)) = Cert.ArcSpec.runMax L h 50 r)
    (h4 : ∀ (h : Fin 2) (r : Fin 512),
      (Vw (Proc.devRef .tc main_v7_1) : S2x512x1.Idx → EReal) (ix3 h r (0 : Fin 1)) = Cert.ArcSpec.runSum L h 50 r)
    (h5 : ∀ (h : Fin 2) (r : Fin 512),
      (Vw (Proc.devRef .tc main_v7_2) : S2x512x1.Idx → EReal) (ix3 h r (0 : Fin 1)) = Cert.ArcSpec.runTgt L T h 50 r) :
    (StableHlo.after (hostOps1 (F := Ideal)) Vw (Proc.devRef .tc main_v34) : S_.Idx → EReal)
      = fun _ => Cert.ArcSpec.meanNllHalves L T := by
  refine (tail_term Vw).trans (funext fun i => ?_)
  rw [tailFn_apply]
  unfold Cert.ArcSpec.meanNllHalves
  refine congrArg (fun s => Ideal.div (0 + s) Cert.ArcSpec.rowsC) (Finset.sum_congr rfl fun r _ => ?_)
  rw [tailRows_apply, h3 0 r, h3 1 r, h4 0 r, h4 1 r, h5 0 r, h5 1 r]
  rfl

end Cert.KernelIdeal.KerHost

end
-- ==== Proof.KerRun.lean ====
/-
  The idealized kernel program's run, read: the host lines after the kernel region merge the two halves' states into the
  mean negative log-likelihood, so the program's result is `meanNllHalves` of the logits of the launched arguments.
-/
import proofs.«424565_j56710748176751_3_alg».proof.Proof.KerArrays
import proofs.«424565_j56710748176751_3_alg».proof.Proof.KerHostTail

set_option maxRecDepth 16384

noncomputable section

namespace Cert.KernelIdeal.KerRun

open Idealize.ShloMosaic Idealize.ShloMosaic.TcCoe Idealize.SL.Sem
open Idealize.ShloMosaic.Pipeline (Dat)
open Cert.KernelIdeal Cert.KernelIdeal.Gen Cert.ArcSpec ValueIdx
open Cert.KernelIdeal.KerInduct Cert.KernelIdeal.KerArrays Cert.KernelIdeal.KerHost

variable (m : (ℓ : Loc nD τ sig) → Buf (Elt Ideal) ℓ) (ρ : Dev nD → PrngReg)

/-- What the host lines after the region leave in the result buffer. -/
theorem tail_result (c : Dev nD) :
    (Pipeline.afterTail₀ cfgs (dats m) 0 (V0 m) [hostOps1] c main_v34 : S_.Idx → EReal)
      = fun _ => meanNllHalves (Lm m c) (Tm m c) := by
  unfold Pipeline.afterTail₀
  simp only [List.flatten_cons, List.flatten_nil, List.append_nil]
  refine tail_value _ (Lm m c) (Tm m c) (fun h r => ?_) (fun h r => ?_) (fun h r => ?_)
  · exact (congrFun ((Pipeline.withArrays_arr spec0 launch0.win.arr_inj c (V0 m c) (fun w => (dats m 0 c).arrAt w cfg0.N) 3).trans (final3 m c)) (ix3 h r (0 : Fin 1)))
  · exact (congrFun ((Pipeline.withArrays_arr spec0 launch0.win.arr_inj c (V0 m c) (fun w => (dats m 0 c).arrAt w cfg0.N) 4).trans (final4 m c)) (ix3 h r (0 : Fin 1)))
  · exact (congrFun ((Pipeline.withArrays_arr spec0 launch0.win.arr_inj c (V0 m c) (fun w => (dats m 0 c).arrAt w cfg0.N) 5).trans (final5 m c)) (ix3 h r (0 : Fin 1)))

/-- The run: the result buffer at the mean negative log-likelihood in the kernel's arrangement, the arguments unchanged. -/
theorem run : θ_run defs (onTc (τ := τ) (main (F := Ideal))) ⟨m, fun _ => 0, ρ⟩ fun r => ∀ c : Dev nD,
      r.2.mem ((c.tc : Thread nD τ).loc main_v34) = (fun _ => meanNllHalves (Lm m c) (Tm m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v34 (Pipeline.mem_restRefs_of main_v34 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.KerRun

end
-- ==== Proof.LibTypedRef.lean ====
/-
  A typed reference to a buffer carries contents of the value's type to the buffer's own type and back along the
  equation between the two types; the two transports are inverse to each other, whatever the reference. Stated for
  any typed reference, so that a term full of such round trips is simplified without ever computing a buffer's type.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, h, h2, h3⟩ := x
  subst h
  rfl

/-- And the other way round. -/
theorem toBuf_ofBuf (x : TRef sig T) (v : x.ref.ty.Contents Val) : x.toBuf (x.ofBuf v) = v := by
  obtain ⟨r, h, h2, h3⟩ := x
  subst h
  rfl

end Idealize.ShloMosaic.StableHlo.TRef
-- ==== Proof.RefRun.lean ====
/-
  The reference program's run, read back in four stretches. Its 109 host operations compute, in order, the clipped
  cosines (operations 1 to 29), the scaled margin logits (30 to 65), their log-softmax (66 to 80) and the mean of the
  negated entries at the targets (81 to 109);
  what each stretch writes is named by the operation-by-operation stages, so that the cosines — which the logits read six
  times — and the logits — which the log-softmax reads four times — are never written out more than once.
-/
import proofs.«424565_j56710748176751_3_alg».proof.Proof.RefReadP
import Idealize.ShloMosaic.Lib.StableHlo.Run
import proofs.«424565_j56710748176751_3_alg».proof.Proof.LibTypedRef

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxHeartbeats 4000000 in
/-- From any buffer contents `V`, the whole line leaves in the result buffer the last stage of the three arguments. -/
theorem after_ops (V : Valuation τ sig (Elt F)) :
    after (ops (F := F)) V (Proc.devRef .tc main_v37)
      = val_main_v37 (F := F) (V (Proc.devRef .tc main_arg0)) (V (Proc.devRef .tc main_arg1)) (V (Proc.devRef .tc main_arg2)) := by
  -- the clipped cosines
  iterate 29 rw [after_cons]
  generalize hA : HloOp.result _ _ = VA
  have a1 : VA (Proc.devRef .tc main_arg1) = V (Proc.devRef .tc main_arg1) := by
    subst hA; after_results_simp
  have e11 : VA (Proc.devRef .tc main_v11) = val_main_v11 (F := F) (V (Proc.devRef .tc main_arg0)) (V (Proc.devRef .tc main_arg2)) := by
    subst hA; after_results_simp
    simp only [TRef.ofBuf_toBuf]
    simp only [val_main_call0_v0, val_main_call0_cst, val_main_call0_v1, val_main_call0_v2, val_main_v0, val_main_cst, val_main_v1, val_main_v2, val_main_v3, val_main_v4, val_main_call1_v0, val_main_call1_cst, val_main_call1_v1, val_main_call1_v2, val_main_v5, val_main_cst_0, val_main_v6, val_main_v7, val_main_v8, val_main_v9, val_main_v10, val_main_cst_1, val_main_cst_2, val_main_call2_v0, val_main_call2_v1, val_main_call2_v2, val_main_call2_v3, val_main_call2_v4, val_main_v11]
    try rfl
  -- the logits
  iterate 36 rw [after_cons]
  generalize hB : HloOp.result _ _ = VB
  have b1 : VB (Proc.devRef .tc main_arg1) = V (Proc.devRef .tc main_arg1) := by
    subst hB; after_results_simp; exact a1
  have e30 : VB (Proc.devRef .tc main_v30) = val_main_v30 (F := F) (V (Proc.devRef .tc main_arg0)) (V (Proc.devRef .tc main_arg1)) (V (Proc.devRef .tc main_arg2)) := by
    subst hB; after_results_simp
    simp only [TRef.ofBuf_toBuf]
    simp only [e11, a1]
    simp only [val_main_v12, val_main_cst_3, val_main_v13, val_main_v14, val_main_cst_4, val_main_cst_5, val_main_call3_v0, val_main_call3_v1, val_main_call3_v2, val_main_call3_v3, val_main_call3_v4, val_main_v15, val_main_v16, val_main_cst_6, val_main_v17, val_main_v18, val_main_cst_7, val_main_v19, val_main_v20, val_main_v21, val_main_cst_8, val_main_v22, val_main_v23, val_main_cst_9, val_main_v24, val_main_v25, val_main_v26, val_main_call5_v0, val_main_call5_v1, val_main_call5_v2, val_main_call5_v3, val_main_v27, val_main_v28, val_main_cst_10, val_main_v29, val_main_v30]
    try rfl
  -- their log-softmax
  iterate 15 rw [after_cons]
  generalize hC : HloOp.result _ _ = VC
  have c1 : VC (Proc.devRef .tc main_arg1) = V (Proc.devRef .tc main_arg1) := by
    subst hC; after_results_simp; exact b1
  have e31 : VC (Proc.devRef .tc main_v31) = val_main_v31 (F := F) (V (Proc.devRef .tc main_arg0)) (V (Proc.devRef .tc main_arg1)) (V (Proc.devRef .tc main_arg2)) := by
    subst hC; after_results_simp
    simp only [TRef.ofBuf_toBuf]
    simp only [e30]
    simp only [val_main_call7_cst, val_main_call7_v0, val_main_call7_cst_0, val_main_call7_v1, val_main_call7_v2, val_main_call7_v3, val_main_call7_v4, val_main_call7_v5, val_main_call7_v6, val_main_call7_cst_1, val_main_call7_v7, val_main_call7_v8, val_main_call7_v9, val_main_call7_v10, val_main_v31]
    try rfl
  -- the entry at the target, negated and averaged
  after_results_simp
  simp only [TRef.ofBuf_toBuf]
  simp only [e31, c1]
  simp only [val_main_v32, val_main_call8_c, val_main_call8_v0, val_main_call8_v1, val_main_call8_c_0, val_main_call8_v2, val_main_call8_v3, val_main_call8_v4, val_main_call8_v5, val_main_call8_c_1, val_main_call8_c_2, val_main_call8_v6, val_main_call8_v7, val_main_call8_v8, val_main_call8_v9, val_main_call8_v10, val_main_call8_v11, val_main_call8_c_3, val_main_call8_v12, val_main_call8_v13, val_main_call8_cst, val_main_call8_v14, val_main_v33, val_main_v34, val_main_v35, val_main_cst_11, val_main_v36, val_main_cst_12, val_main_v37]
  try rfl

set_option maxRecDepth 16384 in
set_option maxHeartbeats 43600000 in
/-- On every device, for any float values, from any memory with zero counters: every weakly fair execution of the
    reference terminates with its result at the last stage of the launched arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
        = val_main_v37 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v37).trans (after_ops _),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.RefLogits.lean ====
/-
  The reference's logits, read at an index: rows divided by their floor-guarded Euclidean norms, the clipped inner
  product of a normalised input row with a normalised class row, the angular margin at the row's target class, and
  the scale by 64 — each stage of the reference identified with its statement over plain index types.
-/
import proofs.«424565_j56710748176751_3_alg».proof.Proof.RefReadP
import proofs.«424565_j56710748176751_3_alg».proof.Proof.ArcSpec
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.ReadP Idealize.ShloMosaic Idealize.ShloMosaic.ValueIdx

/-! ## The unit rows -/

/-- The guarded norm of input row `r`: the larger of the root of the row's sum of squares and the floor. -/
theorem logits_normX (x0 : (⟨S512x512, .f32⟩ : BufTy).Contents (Elt Ideal)) (r : Fin 512) :
    val_main_v2 (F := Ideal) x0 (ix2 r (0 : Fin 1)) = Cert.ArcSpec.rowNorm (fun r k => x0 (ix2 r k)) r := by
  have e : ∀ k : Fin 512, idx_main_call0_v1 (idx_main_call0_v2 (ix2 r (0 : Fin 1))) k = ix2 r k := fun k =>
    funext fun a => Fin.ext (by match a with | ⟨0, _⟩ => rfl | ⟨1, _⟩ => rfl)
  rw [val_main_v2_apply, val_main_v0_apply, val_main_call0_v2_apply, val_main_call0_v1_apply, val_main_v1_apply,
    val_main_cst_apply, val_main_call0_cst_apply]
  simp only [e, val_main_call0_v0_apply, Ideal.ofBits_def, Ideal.mulf_def, Ideal.maximumf_def,
    Ideal.hostUnary_sqrt_def, Ideal.ofBits_zero_f32]
  rfl

/-- Input row `r` divided by its guarded norm, at column `k`. -/
theorem logits_unitX (x0 : (⟨S512x512, .f32⟩ : BufTy).Contents (Elt Ideal)) (r k : Fin 512) :
    val_main_v4 (F := Ideal) x0 (ix2 r k) = Cert.ArcSpec.unit (fun r k => x0 (ix2 r k)) r k := by
  have e : idx_main_v3 (ix2 r k) = ix2 r (0 : Fin 1) :=
    funext fun a => Fin.ext (by match a with | ⟨0, _⟩ => rfl | ⟨1, _⟩ => rfl)
  rw [val_main_v4_apply, val_main_v3_apply, e, logits_normX]
  rfl

/-- The guarded norm of class row `c`. -/
theorem logits_normW (x2 : (⟨S100000x512, .f32⟩ : BufTy).Contents (Elt Ideal)) (c : Fin 100000) :
    val_main_v7 (F := Ideal) x2 (ix2 c (0 : Fin 1)) = Cert.ArcSpec.rowNorm (fun c k => x2 (ix2 c k)) c := by
  have e : ∀ k : Fin 512, idx_main_call1_v1 (idx_main_call1_v2 (ix2 c (0 : Fin 1))) k = ix2 c k := fun k =>
    funext fun a => Fin.ext (by match a with | ⟨0, _⟩ => rfl | ⟨1, _⟩ => rfl)
  rw [val_main_v7_apply, val_main_v5_apply, val_main_call1_v2_apply, val_main_call1_v1_apply, val_main_v6_apply,
    val_main_cst_0_apply, val_main_call1_cst_apply]
  simp only [e, val_main_call1_v0_apply, Ideal.ofBits_def, Ideal.mulf_def, Ideal.maximumf_def,
    Ideal.hostUnary_sqrt_def, Ideal.ofBits_zero_f32]
  rfl

/-- Class row `c` divided by its guarded norm, at column `k`. -/
theorem logits_unitW (x2 : (⟨S100000x512, .f32⟩ : BufTy).Contents (Elt Ideal)) (c : Fin 100000) (k : Fin 512) :
    val_main_v9 (F := Ideal) x2 (ix2 c k) = Cert.ArcSpec.unit (fun c k => x2 (ix2 c k)) c k := by
  have e : idx_main_v8 (ix2 c k) = ix2 c (0 : Fin 1) :=
    funext fun a => Fin.ext (by match a with | ⟨0, _⟩ => rfl | ⟨1, _⟩ => rfl)
  rw [val_main_v9_apply, val_main_v8_apply, e, logits_normW]
  rfl

/-! ## The cosine -/

/-- The clipped inner product of unit input row `r` with unit class row `c`. -/
theorem logits_cosine (x0 : (⟨S512x512, .f32⟩ : BufTy).Contents (Elt Ideal))
    (x2 : (⟨S100000x512, .f32⟩ : BufTy).Contents (Elt Ideal)) (r : Fin 512) (c : Fin 100000) :
    val_main_v11 (F := Ideal) x0 x2 (ix2 r c)
      = Cert.ArcSpec.cosine (fun r k => x0 (ix2 r k)) (fun c k => x2 (ix2 c k)) r c := by
  have el : ∀ k : Fin 512, lidx_main_v10 (ix2 r c) k = ix2 r k := fun k =>
    funext fun a => Fin.ext (by match a with | ⟨0, _⟩ => rfl | ⟨1, _⟩ => rfl)
  have er : ∀ k : Fin 512, ridx_main_v10 (ix2 r c) k = ix2 c k := fun k =>
    funext fun a => Fin.ext (by match a with | ⟨0, _⟩ => rfl | ⟨1, _⟩ => rfl)
  rw [val_main_v11_apply, val_main_call2_v4_apply, val_main_call2_v3_apply, val_main_cst_2_apply,
    val_main_call2_v2_apply, val_main_call2_v1_apply, val_main_call2_v0_apply, val_main_cst_1_apply,
    val_main_v10_apply]
  simp only [el, er, logits_unitX, logits_unitW, Ideal.ofBits_def, Ideal.maximumf_def, Ideal.minimumf_def]
  rfl

/-! ## The margin -/

/-- The margin applied to the cosine: cos(θ + m) above the threshold, the linear fallback below. -/
theorem logits_margin (x0 : (⟨S512x512, .f32⟩ : BufTy).Contents (Elt Ideal))
    (x2 : (⟨S100000x512, .f32⟩ : BufTy).Contents (Elt Ideal)) (r : Fin 512) (c : Fin 100000) :
    val_main_v26 (F := Ideal) x0 x2 (ix2 r c)
      = Cert.ArcSpec.margin (Cert.ArcSpec.cosine (fun r k => x0 (ix2 r k)) (fun c k => x2 (ix2 c k)) r c) := by
  rw [val_main_v26_apply, val_main_v23_apply, val_main_v21_apply, val_main_v25_apply, val_main_v18_apply,
    val_main_v20_apply, val_main_v16_apply, val_main_v15_apply, val_main_call3_v2_apply, val_main_v14_apply,
    val_main_v12_apply, val_main_v22_apply, val_main_cst_8_apply, val_main_v17_apply, val_main_cst_6_apply,
    val_main_v19_apply, val_main_cst_7_apply, val_main_call3_v4_apply, val_main_call3_v3_apply,
    val_main_cst_5_apply, val_main_call3_v1_apply, val_main_call3_v0_apply, val_main_cst_4_apply,
    val_main_v13_apply, val_main_cst_3_apply, val_main_v24_apply, val_main_cst_9_apply, logits_cosine]
  rfl

/-! ## The target class -/

/-- Whether class `c` is row `r`'s target: the target word compared with the class number as a 32-bit word. -/
theorem logits_hot (x1 : (⟨S512, .i32⟩ : BufTy).Contents (Elt Ideal)) (r : Fin 512) (c : Fin 100000) :
    val_main_v27 (F := Ideal) x1 (ix2 r c) = Cert.ArcSpec.hot (fun r => x1 (ix1 r)) r c := by
  have e : idx_main_call5_v0 (idx_main_call5_v2 (ix2 r c)) = ix1 r :=
    funext fun a => Fin.ext (by match a with | ⟨0, _⟩ => rfl)
  rw [val_main_v27_apply, val_main_call5_v2_apply, val_main_call5_v0_apply, val_main_call5_v3_apply,
    val_main_call5_v1_apply, e]
  rfl

/-! ## The logits -/

/-- The reference's logits: 64 times the margin cosine at the target class and the cosine elsewhere. -/
theorem logits_read (x0 : (⟨Cert.ReferenceIdeal.S512x512, .f32⟩ : BufTy).Contents (Elt Ideal))
    (x1 : (⟨Cert.ReferenceIdeal.S512, .i32⟩ : BufTy).Contents (Elt Ideal))
    (x2 : (⟨Cert.ReferenceIdeal.S100000x512, .f32⟩ : BufTy).Contents (Elt Ideal)) (r : Fin 512) (c : Fin 100000) :
    Cert.ReferenceIdeal.ReadP.val_main_v30 (F := Ideal) x0 x1 x2 (ValueIdx.ix2 r c)
      = Cert.ArcSpec.logit (fun r k => x0 (ValueIdx.ix2 r k)) (fun r => x1 (ValueIdx.ix1 r))
          (fun c k => x2 (ValueIdx.ix2 c k)) r c := by
  rw [val_main_v30_apply, val_main_v28_apply, val_main_v29_apply, val_main_cst_10_apply, logits_hot, logits_margin,
    logits_cosine]
  rfl

end Cert.ReferenceIdeal.RefValue

end
-- ==== Proof.RefValue.lean ====
/-
  The reference program's result as the mean negative log-likelihood of the logits.

  From the logits on, the reference takes each row's maximum (the larger of −∞ and the fold of the maximum from −∞
  over the hundred thousand classes), subtracts it, exponentiates, sums the row from zero, takes the logarithm and
  subtracts it again: the row's log-softmax. It then reads, in each row, the entry at the row's target class — the
  target word is a class number below 100000, so it is not negative, it lies within the range 0 … 99999 and the
  gather's clamp leaves it unchanged — negates it, sums the 512 rows from zero and divides by 512.
-/
import proofs.«424565_j56710748176751_3_alg».proof.Proof.RefReadP
import proofs.«424565_j56710748176751_3_alg».proof.Proof.ArcSpec
import Idealize.ShloMosaic.Lib.ValueIdx
import Idealize.ShloMosaic.Lib.ValueIdxRank1
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx
open Cert.ArcSpec (rowMax logSoftmax meanNll)

/-! ## Words: a class number below 100000 as a signed 32-bit word -/

/-- The pattern of −∞ denotes the bottom of the extended reals. -/
theorem ofBits_negInf : Ideal.ofBits .f32 0xFF800000#32 = (⊥ : EReal) := by
  simp [Ideal.ofBits, Ideal.ieee]

/-- A number below 100000, as a 32-bit word read signed, is itself. -/
theorem toInt_word (n : ℕ) (hn : n < 100000) : (BitVec.ofNat 32 n).toInt = (n : Int) := by
  have h1 : (BitVec.ofNat 32 n).toNat = n := by
    rw [BitVec.toNat_ofNat]; omega
  rw [BitVec.toInt_eq_toNat_of_lt (by rw [h1]; omega), h1]

theorem toNat_word (n : ℕ) (hn : n < 100000) : (BitVec.ofNat 32 n).toInt.toNat = n := by
  rw [toInt_word n hn]; simp

/-- It is not below zero … -/
theorem slt_zero (n : ℕ) (hn : n < 100000) : IntOp.cmpi .slt (BitVec.ofNat 32 n) 0#32 = 0#1 := by
  simp only [IntOp.cmpi, BitVec.slt, toInt_word n hn]
  have : ¬ ((n : Int) < 0) := by omega
  simp [this]

/-- … it is at least zero … -/
theorem sge_zero (n : ℕ) (hn : n < 100000) : IntOp.cmpi .sge (BitVec.ofNat 32 n) 0#32 = 1#1 := by
  simp only [IntOp.cmpi, BitVec.sle, toInt_word n hn]
  simp

/-- … and at most 99999. -/
theorem sle_max (n : ℕ) (hn : n < 100000) : IntOp.cmpi .sle (BitVec.ofNat 32 n) 99999#32 = 1#1 := by
  have h2 : (99999#32 : BitVec 32).toInt = 99999 := by decide
  simp only [IntOp.cmpi, BitVec.sle, toInt_word n hn, h2]
  have : ((n : Int) ≤ 99999) := by omega
  simp [this]

/-! ## The layout operations' indices by coordinates -/

theorem idx_call7_v4 (r : Fin 512) (c : Fin 100000) : idx_main_call7_v4 (ix2 r c) = ix2 r (0 : Fin 1) :=
  funext fun a => Fin.ext (by match a with | ⟨0, _⟩ => rfl | ⟨1, _⟩ => rfl)
theorem idx_call7_v3 (r : Fin 512) : idx_main_call7_v3 (ix2 r (0 : Fin 1)) = ix1 r :=
  funext fun a => Fin.ext (by match a with | ⟨0, _⟩ => rfl)
theorem idx_call7_v10 (r : Fin 512) (c : Fin 100000) : idx_main_call7_v10 (ix2 r c) = ix2 r (0 : Fin 1) :=
  funext fun a => Fin.ext (by match a with | ⟨0, _⟩ => rfl | ⟨1, _⟩ => rfl)
theorem idx_call7_v8 (r : Fin 512) : idx_main_call7_v8 (ix2 r (0 : Fin 1)) = ix1 r :=
  funext fun a => Fin.ext (by match a with | ⟨0, _⟩ => rfl)
theorem idx_call7_v7 (r : Fin 512) (k : Fin 100000) : idx_main_call7_v7 (ix1 r) k = ix2 r k :=
  funext fun a => Fin.ext (by match a with | ⟨0, _⟩ => rfl | ⟨1, _⟩ => rfl)
theorem idx_v32 (r : Fin 512) : idx_main_v32 (ix2 r (0 : Fin 1)) = ix1 r :=
  funext fun a => Fin.ext (by match a with | ⟨0, _⟩ => rfl)
theorem idx_call8_v5 (r : Fin 512) : idx_main_call8_v5 (ix3 r (0 : Fin 1) (0 : Fin 1)) = ix2 r (0 : Fin 1) :=
  funext fun a => Fin.ext (by
    match a with
    | ⟨0, _⟩ => show ((r.val * 1 + 0) * 1 + 0) / 1 = r.val; omega
    | ⟨1, _⟩ => rfl)
theorem idx_v34 (r : Fin 512) : idx_main_v34 (ix1 r) = ix2 r (0 : Fin 1) :=
  funext fun a => Fin.ext (by
    match a with
    | ⟨0, _⟩ => show r.val / 1 = r.val; omega
    | ⟨1, _⟩ => rfl)

/-! ## The gather's operand index -/

/-- The gather's dimension numbers: the rows are a batching axis, the classes the collapsed axis the start index names. -/
abbrev gd := gather_S512x100000_S512x1x1_S512x1_n_1_0_0_1_2_11

/-- On the batching axis the gather reads the result's row. -/
theorem gather_coord0 (r : Fin 512) (idx : IVec S512x1x1 32) :
    (gd.operandIdx (ix2 r (0 : Fin 1)) idx (0 : Fin 2)).val = r.val := by
  show gd.start (ix2 r (0 : Fin 1)) idx (0 : Fin 2) + gd.batchCoord (ix2 r (0 : Fin 1)) (0 : Fin 2)
    + gd.offCoord (ix2 r (0 : Fin 1)) (0 : Fin 2) = _
  rw [GatherDims.start_batching _ _ _ _ (by decide), GatherDims.offCoord_eq_zero _ _ _ (by decide)]
  unfold GatherDims.batchCoord
  rw [dif_pos (by decide), Nat.zero_add, Nat.add_zero]
  rfl

/-- On the class axis it reads the start index, a class number, which the clamp into 0 … 99999 leaves as it is. -/
theorem gather_coord1 (r : Fin 512) (c : Fin 100000) (idx : IVec S512x1x1 32)
    (h : idx (ix3 r (0 : Fin 1) (0 : Fin 1)) = BitVec.ofNat 32 c.val) :
    (gd.operandIdx (ix2 r (0 : Fin 1)) idx (1 : Fin 2)).val = c.val := by
  show gd.start (ix2 r (0 : Fin 1)) idx (1 : Fin 2) + gd.batchCoord (ix2 r (0 : Fin 1)) (1 : Fin 2)
    + gd.offCoord (ix2 r (0 : Fin 1)) (1 : Fin 2) = _
  rw [GatherDims.batchCoord_eq_zero _ _ _ (by decide), GatherDims.offCoord_eq_zero _ _ _ (by decide)]
  unfold GatherDims.start
  rw [dif_pos (by decide)]
  have hsi : gd.siIdx (ix2 r (0 : Fin 1)) ⟨List.idxOf (1 : Fin 2) gd.startIndexMap,
      List.idxOf_lt_length_iff.2 (by decide)⟩ = ix3 r (0 : Fin 1) (0 : Fin 1) := by
    funext b; refine Fin.ext ?_
    match b with
    | ⟨0, _⟩ => rfl
    | ⟨1, _⟩ => rfl
    | ⟨2, _⟩ => rfl
  rw [hsi, h, toNat_word _ c.isLt]
  show min c.val (100000 - 1) + 0 + 0 = c.val
  have := c.isLt
  omega

theorem gather_idx (r : Fin 512) (c : Fin 100000) (idx : IVec S512x1x1 32)
    (h : idx (ix3 r (0 : Fin 1) (0 : Fin 1)) = BitVec.ofNat 32 c.val) :
    gd.operandIdx (ix2 r (0 : Fin 1)) idx = ix2 r c := by
  funext a
  refine Fin.ext ?_
  match a with
  | ⟨0, _⟩ => exact gather_coord0 r idx
  | ⟨1, _⟩ => exact gather_coord1 r c idx h

/-! ## The stages -/

section Stages

variable (x0 : (⟨S512x512, .f32⟩ : BufTy).Contents (Elt Ideal)) (x1 : (⟨S512, .i32⟩ : BufTy).Contents (Elt Ideal))
  (x2 : (⟨S100000x512, .f32⟩ : BufTy).Contents (Elt Ideal))
  (L : Fin 512 → Fin 100000 → EReal) (t : Fin 512 → Fin 100000)

/-- The fold of the maximum over a row, whatever names the maximum and the entries go by. -/
theorem fold_max_congr {n : ℕ} (g : Fin n → Ideal .f32) (f : Fin n → EReal) (b : EReal) (h : ∀ c, g c = f c) :
    FloatOps.maximumf (F := Ideal) (φ := .f32) b
        ((Finset.univ : Finset (Fin n)).fold (FloatOps.maximumf (F := Ideal) (φ := .f32)) b g)
      = max b ((Finset.univ : Finset (Fin n)).fold max b f) := by
  obtain rfl : g = f := funext h
  rfl

/-- The row maximum: the larger of −∞ and the fold of the maximum from −∞ over the row's classes. -/
theorem rowMax_eq (hL : ∀ r c, val_main_v30 (F := Ideal) x0 x1 x2 (ix2 r c) = L r c) (r : Fin 512) :
    val_main_call7_v2 (F := Ideal) x0 x1 x2 (ix1 r) = rowMax L r := by
  have hR : S512x100000.Reduces [1] S512 := by decide
  rw [val_main_call7_v2_apply, val_main_call7_v1_apply, val_main_call7_cst_0_apply]
  unfold val_main_call7_v0
  rw [Host.reduce_eq_fold_single FloatOps.maximumf _ _ reducesTo_S512x100000_S512_d1 hR h_S_ (ix1 r),
    val_main_call7_cst_apply, Ideal.ofBits_def, ofBits_negInf]
  unfold Cert.ArcSpec.rowMax
  exact fold_max_congr (n := 100000) _ _ ⊥ (fun c => by
    show val_main_v30 (F := Ideal) x0 x1 x2 (hR.lift (ix1 r) c) = L r c
    rw [← hL r c]
    exact congrArg _ (funext fun a => Fin.ext (by match a with | ⟨0, _⟩ => rfl | ⟨1, _⟩ => rfl)))

/-- A logit less its row's maximum. -/
theorem shifted_eq (hL : ∀ r c, val_main_v30 (F := Ideal) x0 x1 x2 (ix2 r c) = L r c) (r : Fin 512) (c : Fin 100000) :
    val_main_call7_v5 (F := Ideal) x0 x1 x2 (ix2 r c) = L r c - rowMax L r := by
  rw [val_main_call7_v5_apply, val_main_call7_v4_apply, idx_call7_v4, val_main_call7_v3_apply, idx_call7_v3,
    rowMax_eq x0 x1 x2 L hL r, hL r c]
  rfl

/-- The logarithm of the row's sum of exponentials. -/
theorem logSum_eq (hL : ∀ r c, val_main_v30 (F := Ideal) x0 x1 x2 (ix2 r c) = L r c) (r : Fin 512) (c : Fin 100000) :
    val_main_call7_v10 (F := Ideal) x0 x1 x2 (ix2 r c)
      = Ideal.log (0 + ∑ c' : Fin 100000, Ideal.exp (L r c' - rowMax L r)) := by
  rw [val_main_call7_v10_apply, idx_call7_v10, val_main_call7_v9_apply, val_main_call7_v8_apply, idx_call7_v8,
    val_main_call7_v7_apply, val_main_call7_cst_1_apply, Ideal.ofBits_def, Ideal.ofBits_zero_f32,
    Ideal.hostUnary_log_def]
  refine congrArg (fun s => Ideal.log (0 + s)) (Finset.sum_congr rfl fun k _ => ?_)
  rw [idx_call7_v7, val_main_call7_v6_apply, shifted_eq x0 x1 x2 L hL r k, Ideal.hostUnary_exp_def]

/-- The log-softmax of row r at class c. -/
theorem logSoftmax_eq (hL : ∀ r c, val_main_v30 (F := Ideal) x0 x1 x2 (ix2 r c) = L r c) (r : Fin 512) (c : Fin 100000) :
    val_main_v31 (F := Ideal) x0 x1 x2 (ix2 r c) = logSoftmax L r c := by
  rw [val_main_v31_apply, shifted_eq x0 x1 x2 L hL r c, logSum_eq x0 x1 x2 L hL r c]
  rfl

/-- The start index of row r: the target word, which is not negative and so is kept. -/
theorem start_word (ht : ∀ r : Fin 512, x1 (ix1 r) = BitVec.ofNat 32 (t r).val) (r : Fin 512) :
    val_main_call8_v5 (F := Ideal) x1 (ix3 r (0 : Fin 1) (0 : Fin 1)) = BitVec.ofNat 32 (t r).val := by
  rw [val_main_call8_v5_apply, idx_call8_v5, val_main_call8_v4_apply, val_main_call8_v1_apply,
    val_main_call8_v0_apply, val_main_call8_c_apply, val_main_v32_apply, idx_v32, ht r, slt_zero _ (t r).isLt,
    select_zero]

/-- A fold over one index is one application of the operation. -/
theorem fold_unit (op : BitVec 1 → BitVec 1 → BitVec 1) [Std.Commutative op] [Std.Associative op] (b : BitVec 1)
    (g : Fin 1 → BitVec 1) : (Finset.univ : Finset (Fin 1)).fold op b g = op (g 0) b := by
  rw [Finset.univ_unique, Finset.fold_singleton]; rfl

/-- The in-range test of row r holds. -/
theorem inRange_eq (ht : ∀ r : Fin 512, x1 (ix1 r) = BitVec.ofNat 32 (t r).val) (r : Fin 512) :
    val_main_call8_v12 (F := Ideal) x1 (ix2 r (0 : Fin 1)) = 1#1 := by
  have hR : S512x1x1.Reduces [2] S512x1 := by decide
  unfold val_main_call8_v12
  rw [Host.reduce_eq_fold_single IntOp.andi _ _ reducesTo_S512x1x1_S512x1_d2 hR h_S_ (ix2 r (0 : Fin 1)),
    val_main_call8_c_3_apply]
  refine (fold_unit IntOp.andi 1#1 _).trans ?_
  show IntOp.andi (val_main_call8_v11 (F := Ideal) x1 (hR.lift (ix2 r (0 : Fin 1)) (0 : Fin 1))) 1#1 = 1#1
  have hidx : hR.lift (ix2 r (0 : Fin 1)) (0 : Fin 1) = ix3 r (0 : Fin 1) (0 : Fin 1) :=
    funext fun a => Fin.ext (by match a with | ⟨0, _⟩ => rfl | ⟨1, _⟩ => rfl | ⟨2, _⟩ => rfl)
  rw [hidx, val_main_call8_v11_apply, val_main_call8_v7_apply, val_main_call8_v10_apply, val_main_call8_v6_apply,
    val_main_call8_c_2_apply, val_main_call8_v9_apply, val_main_call8_v8_apply, val_main_call8_c_1_apply,
    start_word x1 t ht r, sge_zero _ (t r).isLt, sle_max _ (t r).isLt]
  rfl

/-- The gathered entry of row r is the row's log-softmax at its target class. -/
theorem gathered_eq (ht : ∀ r : Fin 512, x1 (ix1 r) = BitVec.ofNat 32 (t r).val) (r : Fin 512) :
    val_main_call8_v13 (F := Ideal) x0 x1 x2 (ix2 r (0 : Fin 1)) = val_main_v31 (F := Ideal) x0 x1 x2 (ix2 r (t r)) := by
  show val_main_v31 (F := Ideal) x0 x1 x2 (gd.operandIdx (ix2 r (0 : Fin 1)) (val_main_call8_v5 (F := Ideal) x1)) = _
  rw [gather_idx r (t r) _ (start_word x1 t ht r)]

/-- Row r's negative log-likelihood. -/
theorem nll_eq (hL : ∀ r c, val_main_v30 (F := Ideal) x0 x1 x2 (ix2 r c) = L r c)
    (ht : ∀ r : Fin 512, x1 (ix1 r) = BitVec.ofNat 32 (t r).val) (r : Fin 512) :
    val_main_v35 (F := Ideal) x0 x1 x2 (ix1 r) = -(logSoftmax L r (t r)) := by
  rw [val_main_v35_apply, val_main_v34_apply, idx_v34, val_main_v33_apply, inRange_eq x1 t ht r, select_one,
    gathered_eq x0 x1 x2 t ht r, logSoftmax_eq x0 x1 x2 L hL r (t r)]
  rfl

end Stages

/-- The reference's result is the mean negative log-likelihood of the logits at the target classes. -/
theorem ref_value (x0 : (⟨Cert.ReferenceIdeal.S512x512, .f32⟩ : BufTy).Contents (Elt Ideal)) (x1 : (⟨Cert.ReferenceIdeal.S512, .i32⟩ : BufTy).Contents (Elt Ideal)) (x2 : (⟨Cert.ReferenceIdeal.S100000x512, .f32⟩ : BufTy).Contents (Elt Ideal))
    (L : Fin 512 → Fin 100000 → EReal) (t : Fin 512 → Fin 100000)
    (hL : ∀ r c, Cert.ReferenceIdeal.ReadP.val_main_v30 (F := Ideal) x0 x1 x2 (ValueIdx.ix2 r c) = L r c)
    (ht : ∀ r : Fin 512, x1 (ValueIdx.ix1 r) = BitVec.ofNat 32 (t r).val) :
    Cert.ReferenceIdeal.ReadP.val_main_v37 (F := Ideal) x0 x1 x2 = fun _ => Cert.ArcSpec.meanNll L t := by
  funext i
  have hsum : ∑ j : S512.Idx, val_main_v35 (F := Ideal) x0 x1 x2 j = ∑ r : Fin 512, -(logSoftmax L r (t r)) := by
    rw [← Equiv.sum_comp (idxEquiv1 (n := 512)).symm]
    exact Finset.sum_congr rfl fun r _ => nll_eq x0 x1 x2 L t hL ht r
  rw [val_main_v37_apply, val_main_v36_apply, val_main_cst_11_apply, val_main_cst_12_apply, hsum,
    Ideal.hostDivf_def, Ideal.ofBits_def, Ideal.ofBits_def, Ideal.ofBits_zero_f32]
  rfl

end Cert.ReferenceIdeal.RefValue

end
-- ==== Proof.ArcSoftmax.lean ====
/-
  The streaming form of the softmax cross-entropy: the classes taken in two halves of fifty tiles of a
  thousand, with a running maximum and a running sum of exponentials rescaled to it, give the same mean
  negative log-likelihood as the direct form with one maximum and one sum over all the classes.
-/
import proofs.«424565_j56710748176751_3_alg».proof.Proof.ArcSpec
import Mathlib.Data.EReal.Operations
import Mathlib.Data.Finset.Fold
import Mathlib.Data.Finset.Lattice.Fold
import Mathlib.Data.Fintype.EquivFin
import Mathlib.Algebra.BigOperators.Fin
import Mathlib.Algebra.BigOperators.Group.Finset.Basic
import Mathlib.Algebra.Order.BigOperators.Group.Finset
import Mathlib.Analysis.SpecialFunctions.Log.Basic

noncomputable section

namespace Cert.ArcSpec

open Idealize.ShloMosaic

namespace Softmax

/-! ## Small facts on the extended reals -/

/-- The fold of `max` from the bottom is the supremum. -/
theorem fold_max_bot {ι : Type*} (s : Finset ι) (F : ι → EReal) : s.fold max ⊥ F = s.sup F := rfl

/-- The coercion commutes with finite sums. -/
theorem coe_sum {ι : Type*} (s : Finset ι) (g : ι → ℝ) :
    ((∑ i ∈ s, g i : ℝ) : EReal) = ∑ i ∈ s, (g i : EReal) :=
  map_sum (⟨⟨Real.toEReal, EReal.coe_zero⟩, EReal.coe_add⟩ : ℝ →+ EReal) g s

/-- The supremum of a nonempty finite family of reals is a real. -/
theorem sup_coe_real {ι : Type*} (s : Finset ι) (hs : s.Nonempty) (g : ι → ℝ) :
    ∃ m : ℝ, s.sup (fun i => (g i : EReal)) = (m : EReal) := by
  obtain ⟨i, _, hi⟩ := Finset.exists_mem_eq_sup s hs (fun i => (g i : EReal))
  exact ⟨g i, hi⟩

/-- Moving the reference point of an exponential. -/
theorem exp_shift (a b x : ℝ) : Real.exp (a - b) * Real.exp (x - a) = Real.exp (x - b) := by
  rw [← Real.exp_add]; ring_nf

theorem exp_shift_sum {ι : Type*} (s : Finset ι) (g : ι → ℝ) (a b : ℝ) :
    Real.exp (a - b) * ∑ i ∈ s, Real.exp (g i - a) = ∑ i ∈ s, Real.exp (g i - b) := by
  rw [Finset.mul_sum]; exact Finset.sum_congr rfl (fun i _ => exp_shift a b (g i))

/-! ## The classes, enumerated by half, tile and position -/

theorem col_bijective :
    Function.Bijective (fun x : Fin 2 × Fin 50 × Fin 1000 => col x.1 x.2.1.val x.2.2) := by
  rw [Fintype.bijective_iff_injective_and_card]
  refine ⟨?_, by simp⟩
  rintro ⟨h, i, j⟩ ⟨h', i', j'⟩ hc
  simp only [col, Fin.mk.injEq] at hc
  have h1 := h.isLt; have h2 := h'.isLt; have h3 := i.isLt; have h4 := i'.isLt
  have h5 := j.isLt; have h6 := j'.isLt
  refine Prod.ext (Fin.ext ?_) (Prod.ext (Fin.ext ?_) (Fin.ext ?_)) <;> simp only <;> omega

/-- A sum over the two halves' tiles is the sum over all the classes. -/
theorem sum_halves {M : Type*} [AddCommMonoid M] (g : Fin 100000 → M) :
    (∑ i ∈ Finset.range 50, ∑ j : Fin 1000, g (col 0 i j))
      + (∑ i ∈ Finset.range 50, ∑ j : Fin 1000, g (col 1 i j)) = ∑ c, g c := by
  rw [Finset.sum_range, Finset.sum_range,
    ← Fintype.sum_bijective _ col_bijective (fun x => g (col x.1 x.2.1.val x.2.2)) g (fun _ => rfl),
    Fintype.sum_prod_type, Fin.sum_univ_two]
  simp only [Fintype.sum_prod_type]

/-! ## The running states in closed form -/

section Run

variable (L : Fin 512 → Fin 100000 → EReal) (v : Fin 512 → Fin 100000 → ℝ)
  (hv : ∀ r c, L r c = (v r c : EReal))

/-- The running maximum is the supremum over the tiles read so far. -/
theorem runMax_eq (h : Fin 2) (r : Fin 512) (k : ℕ) :
    runMax L h k r
      = (Finset.range k).sup (fun i => (Finset.univ : Finset (Fin 1000)).sup (fun j => L r (col h i j))) := by
  induction k with
  | zero => rfl
  | succ k ih => rw [runMax, ih, fold_max_bot, Finset.range_add_one, Finset.sup_insert, max_comm]

include hv in
/-- After at least one tile the running maximum is a real. -/
theorem runMax_succ_real (h : Fin 2) (r : Fin 512) (k : ℕ) :
    ∃ m : ℝ, runMax L h (k + 1) r = (m : EReal) := by
  have inner : ∀ i : ℕ, ∃ m : ℝ,
      (Finset.univ : Finset (Fin 1000)).sup (fun j => L r (col h i j)) = (m : EReal) := fun i => by
    simp only [hv]; exact sup_coe_real _ Finset.univ_nonempty _
  choose g hg using inner
  rw [runMax_eq]; simp only [hg]
  exact sup_coe_real _ (Finset.nonempty_range_add_one) _

include hv in
/-- The running sum, moved to any real reference point, is the sum of the exponentials of the
    classes read so far at that reference point. -/
theorem runSum_inv (h : Fin 2) (r : Fin 512) (k : ℕ) (m' : ℝ) :
    Ideal.exp (runMax L h k r - (m' : EReal)) * runSum L h k r
      = ((∑ i ∈ Finset.range k, ∑ j : Fin 1000, Real.exp (v r (col h i j) - m') : ℝ) : EReal) := by
  induction k generalizing m' with
  | zero => simp [runMax, runSum]
  | succ k ih =>
    obtain ⟨m1, hm1⟩ := runMax_succ_real L v hv h r k
    rw [runSum, hm1, ih m1]
    simp only [hv, ← EReal.coe_sub, Ideal.exp_coe, ← coe_sum, ← EReal.coe_add, ← EReal.coe_mul]
    rw [Finset.sum_range_succ, mul_add, exp_shift_sum, Finset.mul_sum]
    simp only [exp_shift_sum]

/-- The running target term is the sum of the selected logits over the classes read so far. -/
theorem runTgt_eq (tgt : Fin 512 → BitVec 32) (h : Fin 2) (r : Fin 512) (k : ℕ) :
    runTgt L tgt h k r
      = ∑ i ∈ Finset.range k, ∑ j : Fin 1000, Scalar.select (hot tgt r (col h i j)) (L r (col h i j)) 0 := by
  induction k with
  | zero => rfl
  | succ k ih => rw [runTgt, ih, Finset.sum_range_succ]

end Run
/-! ## The target class -/

section Target

variable (tgt : Fin 512 → BitVec 32) (t : Fin 512 → Fin 100000)
  (ht : ∀ r, tgt r = BitVec.ofNat 32 (t r).val)

include ht in
/-- The comparison of the 32-bit words holds exactly at the target class. -/
theorem hot_eq_one_iff (r : Fin 512) (c : Fin 100000) : hot tgt r c = 1 ↔ c = t r := by
  have h1 := c.isLt; have h2 := (t r).isLt
  simp only [hot, IntOp.cmpi, ht r]
  constructor
  · intro h
    have : (BitVec.ofNat 32 (t r).val == BitVec.ofNat 32 c.val) = true := by
      revert h; cases (BitVec.ofNat 32 (t r).val == BitVec.ofNat 32 c.val) <;> simp
    have h3 := congrArg BitVec.toNat (eq_of_beq this)
    simp only [BitVec.toNat_ofNat] at h3
    exact Fin.ext (by omega)
  · rintro rfl; simp

end Target
/-! ## One row, and the mean -/

section Row

variable (L : Fin 512 → Fin 100000 → EReal) (v : Fin 512 → Fin 100000 → ℝ)
  (hv : ∀ r c, L r c = (v r c : EReal))
  (tgt : Fin 512 → BitVec 32) (t : Fin 512 → Fin 100000)
  (ht : ∀ r, tgt r = BitVec.ofNat 32 (t r).val)

/-- The larger of the two halves' maxima is the row's maximum. -/
theorem bothMax_eq (r : Fin 512) : bothMax L r = rowMax L r := by
  rw [bothMax, rowMax, runMax_eq, runMax_eq, fold_max_bot, max_eq_right bot_le]
  apply le_antisymm
  · refine max_le ?_ ?_ <;>
      exact Finset.sup_le fun i _ => Finset.sup_le fun j _ =>
        Finset.le_sup (f := fun c => L r c) (Finset.mem_univ _)
  · refine Finset.sup_le fun c _ => ?_
    obtain ⟨⟨h, i, j⟩, rfl⟩ := col_bijective.2 c
    have hi : (i : ℕ) ∈ Finset.range 50 := Finset.mem_range.2 i.isLt
    have key : ∀ h' : Fin 2, L r (col h' i j) ≤ (Finset.range 50).sup
        (fun i => (Finset.univ : Finset (Fin 1000)).sup (fun j => L r (col h' i j))) := fun h' =>
      le_trans (Finset.le_sup (f := fun j => L r (col h' i j)) (Finset.mem_univ j))
        (Finset.le_sup (f := fun i : ℕ => (Finset.univ : Finset (Fin 1000)).sup
          (fun j => L r (col h' i j))) hi)
    fin_cases h
    · exact le_max_of_le_left (key 0)
    · exact le_max_of_le_right (key 1)

include hv in
/-- The row's maximum is a real. -/
theorem rowMax_real (r : Fin 512) : ∃ m : ℝ, rowMax L r = (m : EReal) := by
  rw [rowMax, fold_max_bot, max_eq_right bot_le]; simp only [hv]
  exact sup_coe_real _ Finset.univ_nonempty _

include hv in
/-- The two halves' sums, rescaled and added, are the sum over all the classes. -/
theorem bothSum_eq (r : Fin 512) (m : ℝ) (hm : rowMax L r = (m : EReal)) :
    bothSum L r = ((∑ c, Real.exp (v r c - m) : ℝ) : EReal) := by
  rw [bothSum, bothMax_eq, hm, runSum_inv L v hv, runSum_inv L v hv, ← EReal.coe_add,
    sum_halves (fun c => Real.exp (v r c - m))]

include ht in
/-- The two halves' target terms add to the logit at the target class. -/
theorem runTgt_halves (r : Fin 512) : runTgt L tgt 0 50 r + runTgt L tgt 1 50 r = L r (t r) := by
  rw [runTgt_eq, runTgt_eq, sum_halves (fun c => Scalar.select (hot tgt r c) (L r c) 0)]
  simp only [Scalar.select, hot_eq_one_iff tgt t ht]
  simp

include hv ht in
/-- A row's negative log-likelihood, in both arrangements. -/
theorem nllHalves_eq (r : Fin 512) : nllHalves L tgt r = -(logSoftmax L r (t r)) := by
  obtain ⟨m, hm⟩ := rowMax_real L v hv r
  have hS : 0 < ∑ c, Real.exp (v r c - m) :=
    Finset.sum_pos (fun c _ => Real.exp_pos _) Finset.univ_nonempty
  have hlog : Ideal.log ((∑ c, Real.exp (v r c - m) : ℝ) : EReal)
      = ((Real.log (∑ c, Real.exp (v r c - m)) : ℝ) : EReal) := by
    rw [Ideal.log_coe, if_neg (not_le.2 hS)]
  rw [nllHalves, runTgt_halves L tgt t ht, bothSum_eq L v hv r m hm, bothMax_eq, logSoftmax, hm]
  simp only [hv, ← EReal.coe_sub, Ideal.exp_coe, ← coe_sum, zero_add, hlog, ← EReal.coe_add,
    ← EReal.coe_neg]
  refine congrArg Real.toEReal ?_
  ring

end Row

end Softmax

/-- The mean negative log-likelihood computed in two halves of fifty tiles is the one computed directly. -/
theorem meanNllHalves_eq (L : Fin 512 → Fin 100000 → EReal) (tgt : Fin 512 → BitVec 32)
    (t : Fin 512 → Fin 100000)
    (hL : ∀ r c, ∃ v : ℝ, L r c = (v : EReal))
    (ht : ∀ r, tgt r = BitVec.ofNat 32 (t r).val) :
    meanNllHalves L tgt = meanNll L t := by
  choose v hv using hL
  simp only [meanNllHalves, meanNll, Softmax.nllHalves_eq L v hv tgt t ht]

end Cert.ArcSpec

end
-- ==== Proof.PreRange.lean ====
/-
  The index range the precondition states, read back. The precondition's last conjunct is
  `all((target ≥ 0) ∧ (target < 100000))`: two signed comparisons of the 32-bit index array against splat
  constants, their elementwise `and`, and a reduction by `and` over the one axis to a rank-0 result. When the whole
  precondition is 1, that reduction is 1, so every element of the mask is 1, so at every row r the word target[r] is
  in [0, 100000) read signed; a word that is nonnegative signed has its top bit clear and reads the same unsigned,
  so target[r] < 100000 as a natural number. Holds for every float family: only the integer conjunct is read.
-/
import proofs.«424565_j56710748176751_3_alg».proof.Pre_finite_inputs
import proofs.«424565_j56710748176751_3_alg».proof.Proof.Gen.Pre_finite_inputs
import Idealize.ShloMosaic.Lib.ReduceAll
import Idealize.ShloMosaic.Lib.ValueIdx

namespace Cert.PreRange

open Idealize.ShloMosaic Idealize.ShloMosaic.ValueIdx
open Cert.Pre_finite_inputs Cert.Pre_finite_inputs.Gen

/-- The rank-0 shape has one index. -/
instance subsingleton_S_ : Subsingleton Cert.Pre_finite_inputs.S_.Idx := ⟨fun a b => funext fun d => d.elim0⟩

/-- A 32-bit word in [0, 100000) read signed is below 100000 read unsigned: nonnegative signed means the top bit is
    clear, and then the two readings agree. -/
theorem toNat_lt_of_signed (w : BitVec 32) (h0 : IntOp.cmpi .sge w 0#32 = 1#1) (h1 : IntOp.cmpi .slt w 100000#32 = 1#1) :
    w.toNat < 100000 := by
  rw [IntOp.cmpi_sge, show (0#32 : BitVec 32).toInt = 0 from by decide] at h0
  rw [IntOp.cmpi_slt, show (100000#32 : BitVec 32).toInt = 100000 from by decide] at h1
  have hlt : 2 * w.toNat < 2 ^ 32 := BitVec.toInt_pos_iff.1 h0
  rw [BitVec.toInt_eq_toNat_of_lt hlt] at h1
  omega

/-- Every entry of the index array is a valid row of the 100000-row table. -/
theorem target_lt {F : FTy → Type} [FloatOps F] (a0 : FVec F Cert.Pre_finite_inputs.S512x512 .f32)
    (a1 : IVec Cert.Pre_finite_inputs.S512 32) (a2 : FVec F Cert.Pre_finite_inputs.S100000x512 .f32)
    (h : Cert.Pre_finite_inputs.fn (F := F) a0 a1 a2 = fun _ => 1#1) (r : Fin 512) :
    (a1 (ValueIdx.ix1 r)).toNat < 100000 := by
  have e := congrFun h ValueIdx.ix0
  dsimp only [Cert.Pre_finite_inputs.fn] at e
  -- the outer conjunction: (finite a0 ∧ finite a2) ∧ all(range mask)
  have e14 := (IntOp.andi_eq_one.1 e).2
  -- the reduction by `and` to the one rank-0 index is 1: the mask is 1 at row r
  have el := Host.reduce_andi_all _ _ _ _ _ e14 (ValueIdx.ix1 r)
  obtain ⟨h0, h1⟩ := IntOp.andi_eq_one.1 el
  exact toNat_lt_of_signed _ h0 h1

/-- A 32-bit word is the word of its own unsigned value. -/
theorem eq_ofNat_toNat (x : BitVec 32) : x = BitVec.ofNat 32 x.toNat := by
  apply BitVec.eq_of_toNat_eq
  rw [BitVec.toNat_ofNat, Nat.mod_eq_of_lt x.isLt]

/-- Each entry of the index array is the word of its unsigned value (which `target_lt` bounds). -/
theorem target_eq_ofNat {F : FTy → Type} [FloatOps F] (a0 : FVec F Cert.Pre_finite_inputs.S512x512 .f32)
    (a1 : IVec Cert.Pre_finite_inputs.S512 32) (a2 : FVec F Cert.Pre_finite_inputs.S100000x512 .f32)
    (h : Cert.Pre_finite_inputs.fn (F := F) a0 a1 a2 = fun _ => 1#1) (r : Fin 512) :
    a1 (ValueIdx.ix1 r) = BitVec.ofNat 32 (a1 (ValueIdx.ix1 r)).toNat :=
  eq_ofNat_toNat _

end Cert.PreRange
-- ==== Proof.lean ====
/-
  The additive-angular-margin softmax loss, computed by a Pallas kernel that streams the class-weight table once in
  a hundred tiles of a thousand rows (two halves of fifty, an online softmax over each half carried in three scratch
  vectors, the halves merged on the host), against the plain jnp reference that materialises all 512 × 100000 logits
  and takes log_softmax.

  Over the extended reals the two programs compute the same number whenever every target is a class index
  (0 ≤ target < 100000; outside that range the reference's take_along_axis answers NaN or wraps a negative index
  that its one_hot does not, and the two differ): both form the same logits (Proof/ArcSpec.lean: the kernel's
  multiplication of a weight row by the reciprocal of its guarded norm is the reference's division because the guarded
  norm is never zero; the kernel's margin, applied to the one target cosine a tile's masked row sum picks out, is the
  reference's margin applied entrywise and then selected by the same mask), and the streaming recurrences for the
  maximum and the rescaled sum of exponentials telescope to the row maximum and the row's sum of exponentials, because
  every logit is a real number (a clipped cosine times 64) and exp(a − b) · exp(c − a) = exp(c − b) on the reals
  (Proof/ArcSoftmax.lean).

  The kernel side reads the generated frame run: what each grid point leaves in the three carried vectors is one
  covering store each (Proof/KerPieces.lean), whose payloads read row by row are the recurrences' steps
  (Proof/KerTileLogits.lean, Proof/KerTileState.lean), so by induction over the hundred points the vectors are the
  recurrences' values (Proof/KerInduct.lean); the two write-backs per output array cover it (Proof/KerArrays.lean), and
  the host lines after the region are the merge (Proof/KerHostTail.lean, Proof/KerRun.lean). The reference side reads its
  run stretch by stretch (Proof/RefRun.lean) and its stages index by index (Proof/RefLogits.lean, Proof/RefValue.lean).
  The targets' range is read out of the precondition in Proof/PreRange.lean.
-/
import proofs.«424565_j56710748176751_3_alg».proof.Defs
import proofs.«424565_j56710748176751_3_alg».proof.Proof.Gen.Kernel
import proofs.«424565_j56710748176751_3_alg».proof.Proof.Gen.Kernel.Skeleton
import proofs.«424565_j56710748176751_3_alg».proof.Proof.Gen.Kernel.Launch
import proofs.«424565_j56710748176751_3_alg».proof.Proof.Gen.Kernel.Points
import proofs.«424565_j56710748176751_3_alg».proof.Proof.Gen.Kernel.Frame
import proofs.«424565_j56710748176751_3_alg».proof.Proof.Gen.KernelIdeal
import proofs.«424565_j56710748176751_3_alg».proof.Proof.Gen.KernelIdeal.Skeleton
import proofs.«424565_j56710748176751_3_alg».proof.Proof.Gen.KernelIdeal.Launch
import proofs.«424565_j56710748176751_3_alg».proof.Proof.Gen.KernelIdeal.Points
import proofs.«424565_j56710748176751_3_alg».proof.Proof.Gen.KernelIdeal.Frame
import proofs.«424565_j56710748176751_3_alg».proof.Proof.Gen.ReferenceIdeal
import proofs.«424565_j56710748176751_3_alg».proof.Proof.Gen.Pre_finite_inputs
import proofs.«424565_j56710748176751_3_alg».proof.Proof.KerRun
import proofs.«424565_j56710748176751_3_alg».proof.Proof.RefRun
import proofs.«424565_j56710748176751_3_alg».proof.Proof.RefLogits
import proofs.«424565_j56710748176751_3_alg».proof.Proof.RefValue
import proofs.«424565_j56710748176751_3_alg».proof.Proof.ArcSoftmax
import proofs.«424565_j56710748176751_3_alg».proof.Proof.ArcReal
import proofs.«424565_j56710748176751_3_alg».proof.Proof.PreRange
import Idealize.ShloMosaic.Adequacy
import Idealize.ShloMosaic.Init

noncomputable section

namespace Cert.Proof

open Idealize.ShloMosaic Idealize.SL.Sem
open Cert.KernelIdeal.KerInduct

/-- The two idealized programs, from memories agreeing on the arguments, end at the same mean negative
    log-likelihood: the kernel's arrangement of it (two halves of fifty tiles, merged) is the reference's. -/
theorem algebraic : Cert.algebraic_KernelIdeal_ReferenceIdeal := by
  intro m ρ m' ρ' hpre hagree
  refine ⟨fun c => fun _ => Cert.ArcSpec.meanNllHalves (Lm m c) (Tm m c), Cert.KernelIdeal.KerRun.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  -- every target of the row is a class index
  have hlt : ∀ r : Fin 512, (Tm m c r).toNat < 100000 := fun r => Cert.PreRange.target_lt _ _ _ (hpre c) r
  have ht : ∀ r : Fin 512, Tm m c r = BitVec.ofNat 32 ((⟨(Tm m c r).toNat, hlt r⟩ : Fin 100000)).val :=
    fun r => Cert.PreRange.eq_ofNat_toNat _
  rw [Cert.ReferenceIdeal.RefValue.ref_value _ _ _ (Lm m c) (fun r => ⟨(Tm m c r).toNat, hlt r⟩)
    (fun r c' => Cert.ReferenceIdeal.RefValue.logits_read _ _ _ r c') ht]
  funext _
  exact (Cert.ArcSpec.meanNllHalves_eq (Lm m c) (Tm m c) _ (fun r c' => Cert.ArcSpec.logit_real _ _ _ r c') ht).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefRun.run (F := Ideal) m ρ),
  trivial,
  algebraic⟩

end Cert.Proof

end
